-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x4096x1 : Shape := ⟨3, ![8, 4096, 1]⟩
abbrev S8x1x4096 : Shape := ⟨3, ![8, 1, 4096]⟩
abbrev S1x512x3 : Shape := ⟨3, ![1, 512, 3]⟩
abbrev S1x3x512 : Shape := ⟨3, ![1, 3, 512]⟩
abbrev S1x512x1 : Shape := ⟨3, ![1, 512, 1]⟩
abbrev S1x1x4096 : Shape := ⟨3, ![1, 1, 4096]⟩
abbrev S512x3 : Shape := ⟨2, ![512, 3]⟩
abbrev S3x512 : Shape := ⟨2, ![3, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x4096 : Shape := ⟨2, ![1, 4096]⟩
abbrev S1x1x512 : Shape := ⟨3, ![1, 1, 512]⟩
abbrev S8x4096 : Shape := ⟨2, ![8, 4096]⟩
abbrev S_ : Shape := ⟨0, ![]⟩
abbrev S8 : Shape := ⟨1, ![8]⟩

abbrev nBuf : Space → Nat
  | .hbm => 35
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x4096x1, .f32⟩
  | .hbm, ⟨4, _⟩ => ⟨S8x1x4096, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x512, .f32⟩
  | .local _ .vmem, ⟨3, _⟩ => ⟨S1x3x512, .f32⟩
  | .local _ .vmem, ⟨4, _⟩ => ⟨S1x512x1, .f32⟩
  | .local _ .vmem, ⟨5, _⟩ => ⟨S1x512x1, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_cst_7 : Ref sig .tc := ⟨.hbm, 29, rfl⟩
abbrev main_v18 : Ref sig .tc := ⟨.hbm, 30, rfl⟩
abbrev main_cst_8 : Ref sig .tc := ⟨.hbm, 31, rfl⟩
abbrev main_v19 : Ref sig .tc := ⟨.hbm, 32, rfl⟩
abbrev main_cst_9 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def k0_mult1 (i : grid0.Coords) : BitVec 32 :=
  let arg2 : BitVec 32 := BitVec.ofNat 32 (i 2).val
  let c512_i32 : BitVec 32 := 512#32
  let v35 : BitVec 32 := Scalar.muli arg2 c512_i32
  v35
def k0_off1 (i : grid0.Coords) : Fin 3 → Nat :=
  let c0_21 : Index := 0#32
  let c0_22 : Index := 0#32
  let arg2 : BitVec 32 := BitVec.ofNat 32 (i 2).val
  let c512_i32 : BitVec 32 := 512#32
  let v35 : BitVec 32 := Scalar.muli arg2 c512_i32
  let v36 : BitVec 32 := v35
  let v39 : Index := Scalar.indexCast v36
  ![0, 0, v39.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S8x4096x3_S8x3x4096_0_2_1 : S8x4096x3.Transposes [0, 2, 1] S8x3x4096
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  reduces_S512x3_S512 : S512x3.Reduces [1] S512
  shapeCasts_S512_S512x1 : S512.ShapeCasts S512x1
  reduces_S3x512_S512 : S3x512.Reduces [0] S512
  shapeCasts_S512_S1x512 : S512.ShapeCasts S1x512
  broadcasts_S512x1_S512x512 : S512x1.Broadcasts S512x512
  broadcasts_S1x512_S512x512 : S1x512.Broadcasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reduces_S512x512_S512 : S512x512.Reduces [1] S512
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reduces_S512x512_S512_2 : S512x512.Reduces [0] S512
  h_S1x1x512 : 0 < S1x1x512.numel
  shapeCasts_S1x1x512_S1x512 : S1x1x512.ShapeCasts S1x512
  shapeCasts_S1x512_S1x1x512 : S1x512.ShapeCasts S1x1x512
  shapeCasts_S8x4096x1_S8x4096 : S8x4096x1.ShapeCasts S8x4096
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  dot_S512x3_S3x512_S512x512_1_0_0_1_n_n_wf : DotDims.WF S512x3 S3x512 S512x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x1x512.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x4096x3.size a
  hwx0_0 : ∀ i : grid0.Coords, EltTy.bits .f32 = 32 ∨ (Rect.block (s := S8x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S8x3x4096.size a
  hwx0_1 : ∀ i : grid0.Coords, EltTy.bits .f32 = 32 ∨ (Rect.block (s := S8x3x4096) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x4096x1.size a
  hwx0_2 : ∀ i : grid0.Coords, EltTy.bits .f32 = 32 ∨ (Rect.block (s := S8x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S512x3_S3x512_S512x512_1_0_0_1_n_n : DotDims S512x3 S3x512 S512x512 where
  lhsContracting := [1]
  rhsContracting := [0]
  lhsNonContracting := [0]
  rhsNonContracting := [1]
  lhsBatch := []
  rhsBatch := []
  wf := dot_S512x3_S3x512_S512x512_1_0_0_1_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_cst_11 : Ref sig .tc := ⟨.hbm, 43, rfl⟩
abbrev main_v29 : Ref sig .tc := ⟨.hbm, 44, rfl⟩
abbrev main_cst_12 : Ref sig .tc := ⟨.hbm, 45, rfl⟩
abbrev main_v30 : Ref sig .tc := ⟨.hbm, 46, rfl⟩
abbrev main_cst_13 : Ref sig .tc := ⟨.hbm, 47, rfl⟩
abbrev main_v31 : Ref sig .tc := ⟨.hbm, 48, rfl⟩
abbrev main_cst_14 : Ref sig .tc := ⟨.hbm, 49, rfl⟩
abbrev main_v32 : Ref sig .tc := ⟨.hbm, 50, rfl⟩
abbrev main_cst_15 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.RefImports.lean ====
/- The reference's run and its stage-by-stage reading, gathered under one name for the modules that compare it with the kernel. -/
import proofs.«174689_j45406394253980_1_alg».proof.Proof.Gen.ReferenceIdeal.Run
import proofs.«174689_j45406394253980_1_alg».proof.Proof.Gen.ReferenceIdeal.Read
-- ==== Proof.KIRuns.lean ====
import proofs.«174689_j45406394253980_1_alg».proof.Proof.Gen.KernelIdeal.Frame
import proofs.«174689_j45406394253980_1_alg».proof.Proof.Gen.KernelIdeal.Skeleton
import proofs.«174689_j45406394253980_1_alg».proof.Proof.Gen.KernelIdeal.Points
import Idealize.ShloMosaic.Lib.Pipeline.Value

set_option maxRecDepth 16384

noncomputable section

/-!
  The kernel body, run once per control case, at any float instance.

  The body keeps two running minima in its output blocks. The block of the first output (one column of 512 row minima)
  is reset to +∞ when the innermost grid coordinate is 0 and then folded with the row minima of the current 512 × 512
  tile of distances; the block of the second output (one row of 4096 column minima) is reset to +∞ when the two inner
  coordinates are both 0, and the 512-wide slice of it that the current tile faces is folded with the tile's column minima.
  So, whatever a block held before:
    · first output:  `k0_pay5 x0 x1 Y`, with `Y` the +∞ splat at a reset point and the block's previous contents otherwise;
    · second output: the previous contents (the +∞ splat at a reset point) with the facing slice replaced by
      `k0_pay2 (k0_pay3 x0 x1)` of that slice (`faced`).
-/
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The innermost grid coordinate is 0 (the first conditional of the body). -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The two inner grid coordinates are both 0 (the second conditional). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 64). -/
theorem hcond0_1 : ∀ t : Fin cfg0.N, cond0_1 (grid0.coords t) ↔ t.val % 64 = 0 :=
  (by decide +kernel : ∀ t : Fin grid0.N, cond0_1 (grid0.coords t) ↔ t.val % 64 = 0)

/-- Each window's current staging memref at point `t`, and that it is a whole buffer. -/
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .f32 := win0_3.stage (cfg0.slots t 3)
abbrev hs0_3 (t : Fin cfg0.N) : (ms0_3 t).IsWhole := hstage0_3 ((cfg0.slots t 3).cast nbuf0_3)

/-- The 512-wide slice of the second output's block that the tile at grid point `i` faces. -/
abbrev facing (i : grid0.Coords) : Rect S1x1x4096 := Rect.unit (s := S1x1x4096) (k0_off1 i) S1x1x512.size (k0_off1_inb i)

/-- The second output's block after the body: `Y` with the facing slice folded with the tile's column minima. -/
def faced (i : grid0.Coords) (x0 : Vec F S1x512x3 .f32) (x1 : Vec F S1x3x512 .f32) (Y : Vec F S1x1x4096 .f32) : Vec F S1x1x4096 .f32 :=
  (facing i).overlay Y (k0_pay2 (k0_pay3 x0 x1) (View.ld Y (facing i)))

theorem hz3 : (![0, 0, 0] : Fin 3 → ℕ) = fun _ => 0 := by
  funext a; fin_cases a <;> rfl

/-- A store through a rectangle, read back: the earlier contents with the rectangle's part replaced by the payload. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ := r.exists_idx_of_mem hy
    rw [show r.idx x = r.emb x from rfl, View.read_writes_cons_emb, Rect.overlay_emb]
  · rw [Rect.overlay_of_not_mem _ _ _ hy, View.writes_cons,
      View.read_slice_write_of_not_mem r _ _ _ (by rw [Rect.map_emb_univ]; exact hy)]

/-- Through the whole-shape rectangle at zero offsets a store replaces everything. -/
theorem overlay_unit_zero {S : Shape} {α : Type} {off : Fin S.rank → ℕ} (h : off = fun _ => 0) (inb : ∀ a, off a + S.size a ≤ S.size a)
    (X w : S.Idx → α) : (Rect.unit off S.size inb).overlay X w = w := by
  subst h; funext y
  have e := Rect.overlay_emb (Rect.whole S) X w y
  rw [Rect.emb_whole_apply] at e
  exact e

set_option maxHeartbeats 1000000 in
/-- Neither conditional taken: both blocks are folded over what they held. -/
theorem run_B (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S1x512x1 .f32) (harg5 : arg5.IsWhole) (arg6 : Memref sig .tc .vmem S1x1x4096 .f32) (harg6 : arg6.IsWhole) (hc0 : ¬cond0_0 i) (hc1 : ¬cond0_1 i)
    (x0 : Vec F S1x512x3 .f32) (x1 : Vec F S1x3x512 .f32) (y2 : Vec F S1x512x1 .f32) (y3 : Vec F S1x1x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3
            ∗ (iprop(owns (c : Thread nD τ) arg3 fullShare x0 ∗ owns (c : Thread nD τ) arg4 fullShare x1 ∗ owns (c : Thread nD τ) arg5 fullShare (k0_pay5 x0 x1 y2) ∗ owns (c : Thread nD τ) arg6 fullShare (faced i x0 x1 y3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_writes_cons_overlay, View.writes_nil]
      sl_unfold_run_names
      simp only [View.readAt_eq_ld, harg3.read_unread, harg4.read_unread, harg5.read_unread,
        View.ld_unit_zero (S := S1x512x3) hz3, View.ld_unit_zero (S := S1x3x512) hz3, View.ld_unit_zero (S := S1x512x1) hz3]
      exact overlay_unit_zero (S := S1x512x1) hz3 _ _ _
    iexists _; isplitr; swap; · iexact H3
    ipureintro
    rw [read_writes_cons_overlay, View.writes_nil]
    sl_unfold_run_names
    simp only [View.readAt_eq_ld, harg3.read_unread, harg4.read_unread, harg6.read_unread,
      View.ld_unit_zero (S := S1x512x3) hz3, View.ld_unit_zero (S := S1x3x512) hz3]
    rfl

set_option maxHeartbeats 1000000 in
/-- The first conditional taken only: the first block is reset, the second folded over what it held. -/
theorem run_C (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S1x512x1 .f32) (harg5 : arg5.IsWhole) (arg6 : Memref sig .tc .vmem S1x1x4096 .f32) (harg6 : arg6.IsWhole) (hc0 : cond0_0 i) (hc1 : ¬cond0_1 i)
    (x0 : Vec F S1x512x3 .f32) (x1 : Vec F S1x3x512 .f32) (y2 : Vec F S1x512x1 .f32) (y3 : Vec F S1x1x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3
            ∗ (iprop(owns (c : Thread nD τ) arg3 fullShare x0 ∗ owns (c : Thread nD τ) arg4 fullShare x1 ∗ owns (c : Thread nD τ) arg5 fullShare (k0_pay5 x0 x1 k0_pay4) ∗ owns (c : Thread nD τ) arg6 fullShare (faced i x0 x1 y3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      rw [read_writes_cons_overlay, overlay_unit_zero (S := S1x512x1) hz3]
      simp only [View.readAt_eq_ld, harg3.read_unread, harg4.read_unread,
        View.ld_unit_zero (S := S1x512x3) hz3, View.ld_unit_zero (S := S1x3x512) hz3,
        View.readCov_unit_zero (S := S1x512x1) _ hz3]
    iexists _; isplitr; swap; · iexact H3
    ipureintro
    rw [read_writes_cons_overlay, View.writes_nil]
    sl_unfold_run_names
    simp only [View.readAt_eq_ld, harg3.read_unread, harg4.read_unread, harg6.read_unread,
      View.ld_unit_zero (S := S1x512x3) hz3, View.ld_unit_zero (S := S1x3x512) hz3]
    rfl

set_option maxHeartbeats 1000000 in
/-- Both conditionals taken: both blocks are reset, then folded. -/
theorem run_A (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S1x512x1 .f32) (harg5 : arg5.IsWhole) (arg6 : Memref sig .tc .vmem S1x1x4096 .f32) (harg6 : arg6.IsWhole) (hc0 : cond0_0 i) (hc1 : cond0_1 i)
    (x0 : Vec F S1x512x3 .f32) (x1 : Vec F S1x3x512 .f32) (y2 : Vec F S1x512x1 .f32) (y3 : Vec F S1x1x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3
            ∗ (iprop(owns (c : Thread nD τ) arg3 fullShare x0 ∗ owns (c : Thread nD τ) arg4 fullShare x1 ∗ owns (c : Thread nD τ) arg5 fullShare (k0_pay5 x0 x1 k0_pay4) ∗ owns (c : Thread nD τ) arg6 fullShare (faced i x0 x1 k0_pay1)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      rw [read_writes_cons_overlay, overlay_unit_zero (S := S1x512x1) hz3]
      simp only [View.readAt_eq_ld, harg3.read_unread, harg4.read_unread,
        View.ld_unit_zero (S := S1x512x3) hz3, View.ld_unit_zero (S := S1x3x512) hz3,
        View.readCov_unit_zero (S := S1x512x1) _ hz3]
    iexists _; isplitr; swap; · iexact H3
    ipureintro
    sl_unfold_run_names
    rw [read_writes_cons_overlay, read_writes_cons_overlay, View.writes_nil, overlay_unit_zero (S := S1x1x4096) hz3]
    simp only [View.readAt_eq_ld, View.read_writes_junk_eq_canon, View.canon_unit_zero (S := S1x1x4096) hz3,
      harg3.read_unread, harg4.read_unread,
      View.ld_unit_zero (S := S1x512x3) hz3, View.ld_unit_zero (S := S1x3x512) hz3]
    rfl

end Cert.KernelIdeal.Body

end
-- ==== Proof.KIData.lean ====
import proofs.«174689_j45406394253980_1_alg».proof.Proof.KIRuns

set_option maxRecDepth 16384

noncomputable section

/-!
  The pipeline's proof data and the frame, at any float instance.

  What the two output blocks hold after each grid point is defined by recursion on the point: the first output's block
  restarts from +∞ at the points ≡ 0 (mod 8) and is otherwise folded over what the point before left; the second
  output's block restarts at the points ≡ 0 (mod 64). Between two such points the block's staging buffer is not written
  back (the first output is written back at the points ≡ 7 (mod 8), the second at the points ≡ 63 (mod 64)), so the body
  finds there what the point before left; at a restart point the body overwrites the block before it uses it, so what
  it finds does not matter.
-/
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two input blocks at a point, at their literal types. -/
abbrev xb0 (c : Dev nD) (t : Fin cfg0.N) : Vec F S1x512x3 .f32 := iblk m c 0 t
abbrev xb1 (c : Dev nD) (t : Fin cfg0.N) : Vec F S1x3x512 .f32 := iblk m c 1 t

/-- The first output's block after point `n`: the row minima of the tiles met since the last restart. -/
def acc2 (c : Dev nD) : (n : ℕ) → n < cfg0.N → Vec F S1x512x1 .f32
  | 0, hn => k0_pay5 (xb0 m c ⟨0, hn⟩) (xb1 m c ⟨0, hn⟩) k0_pay4
  | n + 1, hn => k0_pay5 (xb0 m c ⟨n + 1, hn⟩) (xb1 m c ⟨n + 1, hn⟩)
      (if (n + 1) % 8 = 0 then k0_pay4 else acc2 c n (Nat.lt_of_succ_lt hn))

/-- The second output's block after point `n`: the column minima of the tiles met since the last restart. -/
def acc3 (c : Dev nD) : (n : ℕ) → n < cfg0.N → Vec F S1x1x4096 .f32
  | 0, hn => faced (grid0.coords ⟨0, hn⟩) (xb0 m c ⟨0, hn⟩) (xb1 m c ⟨0, hn⟩) k0_pay1
  | n + 1, hn => faced (grid0.coords ⟨n + 1, hn⟩) (xb0 m c ⟨n + 1, hn⟩) (xb1 m c ⟨n + 1, hn⟩)
      (if (n + 1) % 64 = 0 then k0_pay1 else acc3 c n (Nat.lt_of_succ_lt hn))

theorem acc2_reset (c : Dev nD) (t : Fin cfg0.N) (h : t.val % 8 = 0) :
    acc2 m c t.val t.isLt = k0_pay5 (xb0 m c t) (xb1 m c t) k0_pay4 := by
  obtain ⟨n, hn⟩ := t
  cases n with
  | zero => rfl
  | succ n => rw [acc2]; dsimp only at h ⊢; rw [if_pos h]

theorem acc2_step (c : Dev nD) (t : Fin cfg0.N) (h : ¬t.val % 8 = 0) :
    acc2 m c t.val t.isLt = k0_pay5 (xb0 m c t) (xb1 m c t) (acc2 m c (t.val - 1) (Nat.lt_of_le_of_lt (Nat.sub_le _ _) t.isLt)) := by
  obtain ⟨n, hn⟩ := t
  cases n with
  | zero => exact absurd (Nat.zero_mod _) h
  | succ n => rw [acc2]; dsimp only at h ⊢; rw [if_neg h]; rfl

theorem acc3_reset (c : Dev nD) (t : Fin cfg0.N) (h : t.val % 64 = 0) :
    acc3 m c t.val t.isLt = faced (grid0.coords t) (xb0 m c t) (xb1 m c t) k0_pay1 := by
  obtain ⟨n, hn⟩ := t
  cases n with
  | zero => rfl
  | succ n => rw [acc3]; dsimp only at h ⊢; rw [if_pos h]

theorem acc3_step (c : Dev nD) (t : Fin cfg0.N) (h : ¬t.val % 64 = 0) :
    acc3 m c t.val t.isLt = faced (grid0.coords t) (xb0 m c t) (xb1 m c t) (acc3 m c (t.val - 1) (Nat.lt_of_le_of_lt (Nat.sub_le _ _) t.isLt)) := by
  obtain ⟨n, hn⟩ := t
  cases n with
  | zero => exact absurd (Nat.zero_mod _) h
  | succ n => rw [acc3]; dsimp only at h ⊢; rw [if_neg h]; rfl

/-! ## The proof data -/

/-- The arrays as the region finds them; after the body at point `t` each input's buffer at its block and the two
    outputs' at their running minima; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc2 m c t.val t.isLt
    | ⟨3, _⟩ => acc3 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = acc2 m c t.val t.isLt := by dsimp only [dats]
theorem after0_3 (c : Dev nD) (t : Fin cfg0.N) : (dats m 0 c).after 3 t = acc3 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Away from a restart the first output's buffer holds what the point before left: it was not written back between. -/
theorem before0_2_step (c : Dev nD) (t : Fin cfg0.N) (h0 : ¬t.val % 8 = 0) (d) :
    (dats m 0 c).before 2 t d = acc2 m c (t.val - 1) (Nat.lt_of_le_of_lt (Nat.sub_le _ _) t.isLt) := by
  have hN : t.val < 512 := lt_of_lt_of_eq t.isLt (show cfg0.N = 512 from N_0)
  rw [Dat.before_out_kept _ 2 rfl t (by omega) (Bool.eq_false_iff.mpr fun h => by have := (flush0_2 _).mp h; dsimp only at this; omega)
    (fun _ => rfl) (fun _ _ => rfl)]
  dsimp only [dats]

/-- Away from a restart the second output's buffer holds what the point before left. -/
theorem before0_3_step (c : Dev nD) (t : Fin cfg0.N) (h1 : ¬t.val % 64 = 0) (d) :
    (dats m 0 c).before 3 t d = acc3 m c (t.val - 1) (Nat.lt_of_le_of_lt (Nat.sub_le _ _) t.isLt) := by
  have hN : t.val < 512 := lt_of_lt_of_eq t.isLt (show cfg0.N = 512 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1200000 in
/-- The body at any point: the inputs' buffers hold their blocks; the point's residues say which conditionals are taken;
    an output block not restarted holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 512 := lt_of_lt_of_eq t.isLt (show cfg0.N = 512 from N_0)
  by_cases h0 : t.val % 8 = 0
  · by_cases h1 : t.val % 64 = 0
    · rw [acc2_reset m c t h0, acc3_reset m c t h1]
      iintro ⟨HΦ, Ho, ⟨%d0, H0⟩, ⟨%d1, H1⟩, ⟨%d2, H2⟩, ⟨%d3, H3⟩⟩
      iapply ((run_A c (grid0.coords t) _ _ _ _ _ _ _ _ ((hcond0_0 t).mpr h0) ((hcond0_1 t).mpr h1) (xb0 m c t) (xb1 m c t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [acc2_reset m c t h0, acc3_step m c t h1]
      simp only [before0_3_step m c t h1]
      iintro ⟨HΦ, Ho, ⟨%d0, H0⟩, ⟨%d1, H1⟩, ⟨%d2, H2⟩, ⟨%d3, H3⟩⟩
      iapply ((run_C c (grid0.coords t) _ _ _ _ _ _ _ _ ((hcond0_0 t).mpr h0) (fun h => h1 ((hcond0_1 t).mp h)) (xb0 m c t) (xb1 m c t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · by_cases h1 : t.val % 64 = 0
    · exfalso; omega
    · rw [acc2_step m c t h0, acc3_step m c t h1]
      simp only [before0_2_step m c t h0, before0_3_step m c t h1]
      iintro ⟨HΦ, Ho, ⟨%d0, H0⟩, ⟨%d1, H1⟩, ⟨%d2, H2⟩, ⟨%d3, H3⟩⟩
      iapply ((run_B c (grid0.coords t) _ _ _ _ _ _ _ _ (fun h => h0 ((hcond0_0 t).mp h)) (fun h => h1 ((hcond0_1 t).mp h)) (xb0 m c t) (xb1 m c t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data compute
    (an output: its entry contents overwritten block by block by the running minima at the write-back points), every
    other unscoped buffer at the host lines' result from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KBRuns.lean ====
import proofs.«174689_j45406394253980_1_alg».proof.Proof.Gen.Kernel.Frame
import proofs.«174689_j45406394253980_1_alg».proof.Proof.Gen.Kernel.Skeleton
import proofs.«174689_j45406394253980_1_alg».proof.Proof.Gen.Kernel.Points
import Idealize.ShloMosaic.Lib.Pipeline.Value

set_option maxRecDepth 16384

noncomputable section

/-!
  The kernel body, run once per control case, at any float instance.

  The body keeps two running minima in its output blocks. The block of the first output (one column of 512 row minima)
  is reset to +∞ when the innermost grid coordinate is 0 and then folded with the row minima of the current 512 × 512
  tile of distances; the block of the second output (one row of 4096 column minima) is reset to +∞ when the two inner
  coordinates are both 0, and the 512-wide slice of it that the current tile faces is folded with the tile's column minima.
  So, whatever a block held before:
    · first output:  `k0_pay5 x0 x1 Y`, with `Y` the +∞ splat at a reset point and the block's previous contents otherwise;
    · second output: the previous contents (the +∞ splat at a reset point) with the facing slice replaced by
      `k0_pay2 (k0_pay3 x0 x1)` of that slice (`faced`).
-/
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The innermost grid coordinate is 0 (the first conditional of the body). -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The two inner grid coordinates are both 0 (the second conditional). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 64). -/
theorem hcond0_1 : ∀ t : Fin cfg0.N, cond0_1 (grid0.coords t) ↔ t.val % 64 = 0 :=
  (by decide +kernel : ∀ t : Fin grid0.N, cond0_1 (grid0.coords t) ↔ t.val % 64 = 0)

/-- Each window's current staging memref at point `t`, and that it is a whole buffer. -/
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .f32 := win0_3.stage (cfg0.slots t 3)
abbrev hs0_3 (t : Fin cfg0.N) : (ms0_3 t).IsWhole := hstage0_3 ((cfg0.slots t 3).cast nbuf0_3)

/-- The 512-wide slice of the second output's block that the tile at grid point `i` faces. -/
abbrev facing (i : grid0.Coords) : Rect S1x1x4096 := Rect.unit (s := S1x1x4096) (k0_off1 i) S1x1x512.size (k0_off1_inb i)

/-- The second output's block after the body: `Y` with the facing slice folded with the tile's column minima. -/
def faced (i : grid0.Coords) (x0 : Vec F S1x512x3 .f32) (x1 : Vec F S1x3x512 .f32) (Y : Vec F S1x1x4096 .f32) : Vec F S1x1x4096 .f32 :=
  (facing i).overlay Y (k0_pay2 (k0_pay3 x0 x1) (View.ld Y (facing i)))

theorem hz3 : (![0, 0, 0] : Fin 3 → ℕ) = fun _ => 0 := by
  funext a; fin_cases a <;> rfl

/-- A store through a rectangle, read back: the earlier contents with the rectangle's part replaced by the payload. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ := r.exists_idx_of_mem hy
    rw [show r.idx x = r.emb x from rfl, View.read_writes_cons_emb, Rect.overlay_emb]
  · rw [Rect.overlay_of_not_mem _ _ _ hy, View.writes_cons,
      View.read_slice_write_of_not_mem r _ _ _ (by rw [Rect.map_emb_univ]; exact hy)]

/-- Through the whole-shape rectangle at zero offsets a store replaces everything. -/
theorem overlay_unit_zero {S : Shape} {α : Type} {off : Fin S.rank → ℕ} (h : off = fun _ => 0) (inb : ∀ a, off a + S.size a ≤ S.size a)
    (X w : S.Idx → α) : (Rect.unit off S.size inb).overlay X w = w := by
  subst h; funext y
  have e := Rect.overlay_emb (Rect.whole S) X w y
  rw [Rect.emb_whole_apply] at e
  exact e

set_option maxHeartbeats 1000000 in
/-- Neither conditional taken: both blocks are folded over what they held. -/
theorem run_B (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S1x512x1 .f32) (harg5 : arg5.IsWhole) (arg6 : Memref sig .tc .vmem S1x1x4096 .f32) (harg6 : arg6.IsWhole) (hc0 : ¬cond0_0 i) (hc1 : ¬cond0_1 i)
    (x0 : Vec F S1x512x3 .f32) (x1 : Vec F S1x3x512 .f32) (y2 : Vec F S1x512x1 .f32) (y3 : Vec F S1x1x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3
            ∗ (iprop(owns (c : Thread nD τ) arg3 fullShare x0 ∗ owns (c : Thread nD τ) arg4 fullShare x1 ∗ owns (c : Thread nD τ) arg5 fullShare (k0_pay5 x0 x1 y2) ∗ owns (c : Thread nD τ) arg6 fullShare (faced i x0 x1 y3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_writes_cons_overlay, View.writes_nil]
      sl_unfold_run_names
      simp only [View.readAt_eq_ld, harg3.read_unread, harg4.read_unread, harg5.read_unread,
        View.ld_unit_zero (S := S1x512x3) hz3, View.ld_unit_zero (S := S1x3x512) hz3, View.ld_unit_zero (S := S1x512x1) hz3]
      exact overlay_unit_zero (S := S1x512x1) hz3 _ _ _
    iexists _; isplitr; swap; · iexact H3
    ipureintro
    rw [read_writes_cons_overlay, View.writes_nil]
    sl_unfold_run_names
    simp only [View.readAt_eq_ld, harg3.read_unread, harg4.read_unread, harg6.read_unread,
      View.ld_unit_zero (S := S1x512x3) hz3, View.ld_unit_zero (S := S1x3x512) hz3]
    rfl

set_option maxHeartbeats 1000000 in
/-- The first conditional taken only: the first block is reset, the second folded over what it held. -/
theorem run_C (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S1x512x1 .f32) (harg5 : arg5.IsWhole) (arg6 : Memref sig .tc .vmem S1x1x4096 .f32) (harg6 : arg6.IsWhole) (hc0 : cond0_0 i) (hc1 : ¬cond0_1 i)
    (x0 : Vec F S1x512x3 .f32) (x1 : Vec F S1x3x512 .f32) (y2 : Vec F S1x512x1 .f32) (y3 : Vec F S1x1x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3
            ∗ (iprop(owns (c : Thread nD τ) arg3 fullShare x0 ∗ owns (c : Thread nD τ) arg4 fullShare x1 ∗ owns (c : Thread nD τ) arg5 fullShare (k0_pay5 x0 x1 k0_pay4) ∗ owns (c : Thread nD τ) arg6 fullShare (faced i x0 x1 y3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      rw [read_writes_cons_overlay, overlay_unit_zero (S := S1x512x1) hz3]
      simp only [View.readAt_eq_ld, harg3.read_unread, harg4.read_unread,
        View.ld_unit_zero (S := S1x512x3) hz3, View.ld_unit_zero (S := S1x3x512) hz3,
        View.readCov_unit_zero (S := S1x512x1) _ hz3]
    iexists _; isplitr; swap; · iexact H3
    ipureintro
    rw [read_writes_cons_overlay, View.writes_nil]
    sl_unfold_run_names
    simp only [View.readAt_eq_ld, harg3.read_unread, harg4.read_unread, harg6.read_unread,
      View.ld_unit_zero (S := S1x512x3) hz3, View.ld_unit_zero (S := S1x3x512) hz3]
    rfl

set_option maxHeartbeats 1000000 in
/-- Both conditionals taken: both blocks are reset, then folded. -/
theorem run_A (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S1x512x1 .f32) (harg5 : arg5.IsWhole) (arg6 : Memref sig .tc .vmem S1x1x4096 .f32) (harg6 : arg6.IsWhole) (hc0 : cond0_0 i) (hc1 : cond0_1 i)
    (x0 : Vec F S1x512x3 .f32) (x1 : Vec F S1x3x512 .f32) (y2 : Vec F S1x512x1 .f32) (y3 : Vec F S1x1x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3
            ∗ (iprop(owns (c : Thread nD τ) arg3 fullShare x0 ∗ owns (c : Thread nD τ) arg4 fullShare x1 ∗ owns (c : Thread nD τ) arg5 fullShare (k0_pay5 x0 x1 k0_pay4) ∗ owns (c : Thread nD τ) arg6 fullShare (faced i x0 x1 k0_pay1)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      rw [read_writes_cons_overlay, overlay_unit_zero (S := S1x512x1) hz3]
      simp only [View.readAt_eq_ld, harg3.read_unread, harg4.read_unread,
        View.ld_unit_zero (S := S1x512x3) hz3, View.ld_unit_zero (S := S1x3x512) hz3,
        View.readCov_unit_zero (S := S1x512x1) _ hz3]
    iexists _; isplitr; swap; · iexact H3
    ipureintro
    sl_unfold_run_names
    rw [read_writes_cons_overlay, read_writes_cons_overlay, View.writes_nil, overlay_unit_zero (S := S1x1x4096) hz3]
    simp only [View.readAt_eq_ld, View.read_writes_junk_eq_canon, View.canon_unit_zero (S := S1x1x4096) hz3,
      harg3.read_unread, harg4.read_unread,
      View.ld_unit_zero (S := S1x512x3) hz3, View.ld_unit_zero (S := S1x3x512) hz3]
    rfl

end Cert.Kernel.Body

end
-- ==== Proof.KBData.lean ====
import proofs.«174689_j45406394253980_1_alg».proof.Proof.KBRuns

set_option maxRecDepth 16384

noncomputable section

/-!
  The pipeline's proof data and the frame, at any float instance.

  What the two output blocks hold after each grid point is defined by recursion on the point: the first output's block
  restarts from +∞ at the points ≡ 0 (mod 8) and is otherwise folded over what the point before left; the second
  output's block restarts at the points ≡ 0 (mod 64). Between two such points the block's staging buffer is not written
  back (the first output is written back at the points ≡ 7 (mod 8), the second at the points ≡ 63 (mod 64)), so the body
  finds there what the point before left; at a restart point the body overwrites the block before it uses it, so what
  it finds does not matter.
-/
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two input blocks at a point, at their literal types. -/
abbrev xb0 (c : Dev nD) (t : Fin cfg0.N) : Vec F S1x512x3 .f32 := iblk m c 0 t
abbrev xb1 (c : Dev nD) (t : Fin cfg0.N) : Vec F S1x3x512 .f32 := iblk m c 1 t

/-- The first output's block after point `n`: the row minima of the tiles met since the last restart. -/
def acc2 (c : Dev nD) : (n : ℕ) → n < cfg0.N → Vec F S1x512x1 .f32
  | 0, hn => k0_pay5 (xb0 m c ⟨0, hn⟩) (xb1 m c ⟨0, hn⟩) k0_pay4
  | n + 1, hn => k0_pay5 (xb0 m c ⟨n + 1, hn⟩) (xb1 m c ⟨n + 1, hn⟩)
      (if (n + 1) % 8 = 0 then k0_pay4 else acc2 c n (Nat.lt_of_succ_lt hn))

/-- The second output's block after point `n`: the column minima of the tiles met since the last restart. -/
def acc3 (c : Dev nD) : (n : ℕ) → n < cfg0.N → Vec F S1x1x4096 .f32
  | 0, hn => faced (grid0.coords ⟨0, hn⟩) (xb0 m c ⟨0, hn⟩) (xb1 m c ⟨0, hn⟩) k0_pay1
  | n + 1, hn => faced (grid0.coords ⟨n + 1, hn⟩) (xb0 m c ⟨n + 1, hn⟩) (xb1 m c ⟨n + 1, hn⟩)
      (if (n + 1) % 64 = 0 then k0_pay1 else acc3 c n (Nat.lt_of_succ_lt hn))

theorem acc2_reset (c : Dev nD) (t : Fin cfg0.N) (h : t.val % 8 = 0) :
    acc2 m c t.val t.isLt = k0_pay5 (xb0 m c t) (xb1 m c t) k0_pay4 := by
  obtain ⟨n, hn⟩ := t
  cases n with
  | zero => rfl
  | succ n => rw [acc2]; dsimp only at h ⊢; rw [if_pos h]

theorem acc2_step (c : Dev nD) (t : Fin cfg0.N) (h : ¬t.val % 8 = 0) :
    acc2 m c t.val t.isLt = k0_pay5 (xb0 m c t) (xb1 m c t) (acc2 m c (t.val - 1) (Nat.lt_of_le_of_lt (Nat.sub_le _ _) t.isLt)) := by
  obtain ⟨n, hn⟩ := t
  cases n with
  | zero => exact absurd (Nat.zero_mod _) h
  | succ n => rw [acc2]; dsimp only at h ⊢; rw [if_neg h]; rfl

theorem acc3_reset (c : Dev nD) (t : Fin cfg0.N) (h : t.val % 64 = 0) :
    acc3 m c t.val t.isLt = faced (grid0.coords t) (xb0 m c t) (xb1 m c t) k0_pay1 := by
  obtain ⟨n, hn⟩ := t
  cases n with
  | zero => rfl
  | succ n => rw [acc3]; dsimp only at h ⊢; rw [if_pos h]

theorem acc3_step (c : Dev nD) (t : Fin cfg0.N) (h : ¬t.val % 64 = 0) :
    acc3 m c t.val t.isLt = faced (grid0.coords t) (xb0 m c t) (xb1 m c t) (acc3 m c (t.val - 1) (Nat.lt_of_le_of_lt (Nat.sub_le _ _) t.isLt)) := by
  obtain ⟨n, hn⟩ := t
  cases n with
  | zero => exact absurd (Nat.zero_mod _) h
  | succ n => rw [acc3]; dsimp only at h ⊢; rw [if_neg h]; rfl

/-! ## The proof data -/

/-- The arrays as the region finds them; after the body at point `t` each input's buffer at its block and the two
    outputs' at their running minima; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc2 m c t.val t.isLt
    | ⟨3, _⟩ => acc3 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = acc2 m c t.val t.isLt := by dsimp only [dats]
theorem after0_3 (c : Dev nD) (t : Fin cfg0.N) : (dats m 0 c).after 3 t = acc3 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Away from a restart the first output's buffer holds what the point before left: it was not written back between. -/
theorem before0_2_step (c : Dev nD) (t : Fin cfg0.N) (h0 : ¬t.val % 8 = 0) (d) :
    (dats m 0 c).before 2 t d = acc2 m c (t.val - 1) (Nat.lt_of_le_of_lt (Nat.sub_le _ _) t.isLt) := by
  have hN : t.val < 512 := lt_of_lt_of_eq t.isLt (show cfg0.N = 512 from N_0)
  rw [Dat.before_out_kept _ 2 rfl t (by omega) (Bool.eq_false_iff.mpr fun h => by have := (flush0_2 _).mp h; dsimp only at this; omega)
    (fun _ => rfl) (fun _ _ => rfl)]
  dsimp only [dats]

/-- Away from a restart the second output's buffer holds what the point before left. -/
theorem before0_3_step (c : Dev nD) (t : Fin cfg0.N) (h1 : ¬t.val % 64 = 0) (d) :
    (dats m 0 c).before 3 t d = acc3 m c (t.val - 1) (Nat.lt_of_le_of_lt (Nat.sub_le _ _) t.isLt) := by
  have hN : t.val < 512 := lt_of_lt_of_eq t.isLt (show cfg0.N = 512 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1200000 in
/-- The body at any point: the inputs' buffers hold their blocks; the point's residues say which conditionals are taken;
    an output block not restarted holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 512 := lt_of_lt_of_eq t.isLt (show cfg0.N = 512 from N_0)
  by_cases h0 : t.val % 8 = 0
  · by_cases h1 : t.val % 64 = 0
    · rw [acc2_reset m c t h0, acc3_reset m c t h1]
      iintro ⟨HΦ, Ho, ⟨%d0, H0⟩, ⟨%d1, H1⟩, ⟨%d2, H2⟩, ⟨%d3, H3⟩⟩
      iapply ((run_A c (grid0.coords t) _ _ _ _ _ _ _ _ ((hcond0_0 t).mpr h0) ((hcond0_1 t).mpr h1) (xb0 m c t) (xb1 m c t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [acc2_reset m c t h0, acc3_step m c t h1]
      simp only [before0_3_step m c t h1]
      iintro ⟨HΦ, Ho, ⟨%d0, H0⟩, ⟨%d1, H1⟩, ⟨%d2, H2⟩, ⟨%d3, H3⟩⟩
      iapply ((run_C c (grid0.coords t) _ _ _ _ _ _ _ _ ((hcond0_0 t).mpr h0) (fun h => h1 ((hcond0_1 t).mp h)) (xb0 m c t) (xb1 m c t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · by_cases h1 : t.val % 64 = 0
    · exfalso; omega
    · rw [acc2_step m c t h0, acc3_step m c t h1]
      simp only [before0_2_step m c t h0, before0_3_step m c t h1]
      iintro ⟨HΦ, Ho, ⟨%d0, H0⟩, ⟨%d1, H1⟩, ⟨%d2, H2⟩, ⟨%d3, H3⟩⟩
      iapply ((run_B c (grid0.coords t) _ _ _ _ _ _ _ _ (fun h => h0 ((hcond0_0 t).mp h)) (fun h => h1 ((hcond0_1 t).mp h)) (xb0 m c t) (xb1 m c t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data compute
    (an output: its entry contents overwritten block by block by the running minima at the write-back points), every
    other unscoped buffer at the host lines' result from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Spec.lean ====
/-
  The mathematics both programs compute, over the extended reals.

  For point clouds `P, G : [8, 4096, 3]` the squared distance of point `n` of `P` and point `m` of `G` in batch `b` is
  taken in its expanded form and clamped at zero:
      dist b n m = max ((|P b n|² + |G b m|²) - 2 · ⟨P b n, G b m⟩) 0 .
  The two nearest-neighbour tables are its infima along either axis:
      p2g b n = inf over m of dist b n m ,     g2p b m = inf over n of dist b n m .
  An infimum is `Finset.inf`, the fold of `min` from `⊤`, so tiling, regrouping and reordering it cost nothing
  (min is commutative, associative and idempotent, and `⊤` is neutral): no finiteness of the inputs is needed.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A point cloud: batch, point, coordinate. -/
abbrev Pts : Type := Fin 8 → Fin 4096 → Fin 3 → EReal

/-- The literal `2.0` both programs scale the cross term by, and the literal `0.0` both clamp at: kept as their words. -/
def c2 : EReal := Ideal.ofBits .f32 0x40000000#32
def c0 : EReal := Ideal.ofBits .f32 0x00000000#32

/-- The squared norm of point `n` of batch `b`. -/
def sqn (X : Pts) (b : Fin 8) (n : Fin 4096) : EReal := ∑ k : Fin 3, X b n k * X b n k

/-- The inner product of point `n` of `P` and point `m` of `G`. -/
def cross (P G : Pts) (b : Fin 8) (n m : Fin 4096) : EReal := ∑ k : Fin 3, P b n k * G b m k

/-- The clamped, expanded squared distance. -/
def dist (P G : Pts) (b : Fin 8) (n m : Fin 4096) : EReal :=
  max ((sqn P b n + sqn G b m) - c2 * cross P G b n m) c0

/-- Nearest neighbour of each point of `P` among `G`. -/
def p2g (P G : Pts) (b : Fin 8) (n : Fin 4096) : EReal := Finset.univ.inf fun m : Fin 4096 => dist P G b n m

/-- Nearest neighbour of each point of `G` among `P`. -/
def g2p (P G : Pts) (b : Fin 8) (m : Fin 4096) : EReal := Finset.univ.inf fun n : Fin 4096 => dist P G b n m

/-- A `[8, 4096, 3]` array read by coordinates. -/
def curry3 (x : (⟨3, ![8, 4096, 3]⟩ : Shape).Idx → EReal) : Pts := fun b n k => x (ix3 b n k)

end Cert.Chamfer

end
-- ==== Proof.RefValue.lean ====
/-
  The reference program's two nearest-neighbour tables are the specification's.

  At the ideal instance a float is an extended real and every operation is exact. The reference forms, for each batch
  `b` and each pair of points `n` of the first cloud and `m` of the second, the clamped expanded squared distance
      max ((|P b n|² + |G b m|²) - 2 · ⟨P b n, G b m⟩) 0 ,
  and then takes its minimum along the last axis (over `m`) and along the middle axis (over `n`), each from `+∞`.
  A minimum from `+∞` over all the coordinates of one axis is the infimum `Finset.inf` over that axis: `min` is
  commutative and associative, so the order in which the axis is traversed is immaterial, and `+∞` is the top element.
-/
import proofs.«174689_j45406394253980_1_alg».proof.Proof.RefImports
import proofs.«174689_j45406394253980_1_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Chamfer

/-- The word `0x7F800000` is `+∞`, the top of the extended reals. -/
theorem ofBits_inf_f32 : Ideal.ofBits .f32 0x7F800000#32 = (⊤ : EReal) := by simp [Ideal.ofBits, Ideal.ieee]

/-- A fold of the ideal `minimumf` from `+∞` is the infimum. -/
theorem fold_minimumf_eq_inf {ι : Type} (s : Finset ι) (f : ι → EReal) :
    s.fold (FloatOps.minimumf (F := Ideal) (φ := .f32)) (FloatOps.ofBits (F := Ideal) .f32 0x7F800000#32) f = s.inf f := by
  have h : (FloatOps.ofBits (F := Ideal) .f32 0x7F800000#32) = (⊤ : EReal) := ofBits_inf_f32
  rw [h]; rfl

/-- The squared norms of the first cloud, as the reference sums them: from the word `0`, which adds nothing. -/
theorem sqn_left (x0 : (⟨S8x4096x3, .f32⟩ : BufTy).Contents (Elt Ideal)) (b : Fin 8) (n : Fin 4096) :
    val_main_v1 (F := Ideal) x0 (ix2 b n) = sqn (curry3 x0) b n := by
  rw [val_main_v1_apply, val_main_cst_apply, Ideal.ofBits_def, Ideal.ofBits_zero_f32, zero_add]
  unfold Cert.Chamfer.sqn
  refine Finset.sum_congr rfl fun k _ => ?_
  rw [val_main_v0_apply, Ideal.mulf_def]
  have e : idx_main_v1 (ix2 b n) k = ix3 b n k := funext fun a => Fin.ext (by match a with | ⟨0, _⟩ => rfl | ⟨1, _⟩ => rfl | ⟨2, _⟩ => rfl)
  rw [e]; rfl

/-- The squared norms of the second cloud likewise. -/
theorem sqn_right (x1 : (⟨S8x4096x3, .f32⟩ : BufTy).Contents (Elt Ideal)) (b : Fin 8) (m : Fin 4096) :
    val_main_v3 (F := Ideal) x1 (ix2 b m) = sqn (curry3 x1) b m := by
  rw [val_main_v3_apply, val_main_cst_0_apply, Ideal.ofBits_def, Ideal.ofBits_zero_f32, zero_add]
  unfold Cert.Chamfer.sqn
  refine Finset.sum_congr rfl fun k _ => ?_
  rw [val_main_v2_apply, Ideal.mulf_def]
  have e : idx_main_v3 (ix2 b m) k = ix3 b m k := funext fun a => Fin.ext (by match a with | ⟨0, _⟩ => rfl | ⟨1, _⟩ => rfl | ⟨2, _⟩ => rfl)
  rw [e]; rfl

/-- The batched contraction over the coordinate axis is the inner product of the two points. -/
theorem cross_read (x0 x1 : (⟨S8x4096x3, .f32⟩ : BufTy).Contents (Elt Ideal)) (b : Fin 8) (n m : Fin 4096) :
    val_main_v4 (F := Ideal) x0 x1 (ix3 b n m) = cross (curry3 x0) (curry3 x1) b n m := by
  rw [val_main_v4_apply]
  unfold Cert.Chamfer.cross
  refine Finset.sum_congr rfl fun k _ => ?_
  have el : lidx_main_v4 (ix3 b n m) k = ix3 b n k := funext fun a => Fin.ext (by match a with | ⟨0, _⟩ => rfl | ⟨1, _⟩ => rfl | ⟨2, _⟩ => rfl)
  have er : ridx_main_v4 (ix3 b n m) k = ix3 b m k := funext fun a => Fin.ext (by match a with | ⟨0, _⟩ => rfl | ⟨1, _⟩ => rfl | ⟨2, _⟩ => rfl)
  rw [el, er]; rfl

/-- The first cloud's norms, broadcast along the second cloud's axis. -/
theorem sqn_left_bcast (x0 : (⟨S8x4096x3, .f32⟩ : BufTy).Contents (Elt Ideal)) (b : Fin 8) (n m : Fin 4096) :
    val_main_v7 (F := Ideal) x0 (ix3 b n m) = sqn (curry3 x0) b n := by
  rw [val_main_v7_apply, val_main_v5_apply]
  have e : idx_main_v5 (idx_main_v7 (ix3 b n m)) = ix2 b n := funext fun a => Fin.ext (by match a with | ⟨0, _⟩ => rfl | ⟨1, _⟩ => rfl)
  rw [e]; exact sqn_left x0 b n

/-- The second cloud's norms, broadcast along the first cloud's axis. -/
theorem sqn_right_bcast (x1 : (⟨S8x4096x3, .f32⟩ : BufTy).Contents (Elt Ideal)) (b : Fin 8) (n m : Fin 4096) :
    val_main_v8 (F := Ideal) x1 (ix3 b n m) = sqn (curry3 x1) b m := by
  rw [val_main_v8_apply, val_main_v6_apply]
  have e : idx_main_v6 (idx_main_v8 (ix3 b n m)) = ix2 b m := funext fun a => Fin.ext (by match a with | ⟨0, _⟩ => rfl | ⟨1, _⟩ => rfl)
  rw [e]; exact sqn_right x1 b m

/-- The clamped expanded squared distance, entry by entry. -/
theorem dist_apply (x0 x1 : (⟨S8x4096x3, .f32⟩ : BufTy).Contents (Elt Ideal)) (b : Fin 8) (n m : Fin 4096) :
    val_main_v14 (F := Ideal) x0 x1 (ix3 b n m) = Cert.Chamfer.dist (curry3 x0) (curry3 x1) b n m := by
  rw [val_main_v14_apply, val_main_v12_apply, val_main_v9_apply, val_main_v11_apply, sqn_left_bcast, sqn_right_bcast,
    cross_read, val_main_v10_apply, val_main_cst_1_apply, val_main_v13_apply, val_main_cst_2_apply]
  rfl

/-- The minimum along the last axis: each point of the first cloud against the whole second cloud. -/
theorem ref_p2g (x0 x1 : (⟨S8x4096x3, .f32⟩ : BufTy).Contents (Elt Ideal)) (b : Fin 8) (n : Fin 4096) :
    val_main_v15 (F := Ideal) x0 x1 (ix2 b n) = Cert.Chamfer.p2g (curry3 x0) (curry3 x1) b n := by
  unfold val_main_v15
  rw [Host.reduce_eq_fold_single _ _ _ reducesTo_S8x4096x4096_S8x4096_d2 (by decide) h_S_]
  rw [val_main_cst_3_apply]
  refine (fold_minimumf_eq_inf _ _).trans ?_
  unfold Cert.Chamfer.p2g
  refine Finset.inf_congr rfl fun m _ => ?_
  rw [Function.comp_apply]
  refine (congrArg (val_main_v14 (F := Ideal) x0 x1) (?_ : _ = ix3 b n m)).trans (dist_apply x0 x1 b n m)
  exact funext fun a => Fin.ext (by match a with | ⟨0, _⟩ => rfl | ⟨1, _⟩ => rfl | ⟨2, _⟩ => rfl)

/-- The minimum along the middle axis: each point of the second cloud against the whole first cloud. -/
theorem ref_g2p (x0 x1 : (⟨S8x4096x3, .f32⟩ : BufTy).Contents (Elt Ideal)) (b : Fin 8) (m : Fin 4096) :
    val_main_v16 (F := Ideal) x0 x1 (ix2 b m) = Cert.Chamfer.g2p (curry3 x0) (curry3 x1) b m := by
  unfold val_main_v16
  rw [Host.reduce_eq_fold_single _ _ _ reducesTo_S8x4096x4096_S8x4096_d1 (by decide) h_S_]
  rw [val_main_cst_4_apply]
  refine (fold_minimumf_eq_inf _ _).trans ?_
  unfold Cert.Chamfer.g2p
  refine Finset.inf_congr rfl fun n _ => ?_
  rw [Function.comp_apply]
  refine (congrArg (val_main_v14 (F := Ideal) x0 x1) (?_ : _ = ix3 b n m)).trans (dist_apply x0 x1 b n m)
  exact funext fun a => Fin.ext (by match a with | ⟨0, _⟩ => rfl | ⟨1, _⟩ => rfl | ⟨2, _⟩ => rfl)

end Cert.ReferenceIdeal.RefValue

end
-- ==== Proof.PayValue.lean ====
import proofs.«174689_j45406394253980_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The kernel body's payloads, read index by index, at the extended reals

At the ideal values a float is an extended real and every operation is the exact one, so each
payload of the kernel body is a closed expression in the entries of the two point tiles:
the 512 × 512 tile of clamped squared distances, its row minimum and its column minimum folded
into the running minima, and the two splats of +∞ that initialise those running minima.
-/

noncomputable section

namespace Cert.KernelIdeal.PayValue

open Cert.KernelIdeal Cert.KernelIdeal.Gen Idealize.ShloMosaic Idealize.ShloMosaic.ValueIdx

/-- The f32 word of +∞ is the top of the extended reals. -/
theorem ofBits_inf_f32 : Ideal.ofBits .f32 0x7F800000#32 = (⊤ : EReal) := by
  simp [Ideal.ofBits, Ideal.ieee]

/-- The splat that initialises the running column minima is +∞ everywhere. -/
theorem pay1_apply (j : S1x1x4096.Idx) : k0_pay1 (F := Ideal) j = (⊤ : EReal) := by
  show Ideal.ofBits .f32 0x7F800000#32 = _
  exact ofBits_inf_f32

/-- The splat that initialises the running row minima is +∞ everywhere. -/
theorem pay4_apply (j : S1x512x1.Idx) : k0_pay4 (F := Ideal) j = (⊤ : EReal) := by
  show Ideal.ofBits .f32 0x7F800000#32 = _
  exact ofBits_inf_f32

/-- A fold of `min` from the top element is the infimum of the family. -/
theorem fold_min_top_eq_inf {ι : Type} (s : Finset ι) (f : ι → EReal) :
    s.fold min (⊤ : EReal) f = s.inf f := rfl

/-- Over a column index `c`, the index of the 512 × 512 tile with row coordinate `r` inserted. -/
theorem lift_col (h : S512x512.Reduces [0] S512) (c : Fin 512) (r : Fin 512) :
    h.lift (ix1 c) r = ix2 r c :=
  funext fun a => Fin.ext (by match a with | ⟨0, _⟩ => rfl | ⟨1, _⟩ => rfl)

/-- Over a row index `r`, the index of the 512 × 512 tile with column coordinate `c` inserted. -/
theorem lift_row (h : S512x512.Reduces [1] S512) (r : Fin 512) (c : Fin 512) :
    h.lift (ix1 r) c = ix2 r c :=
  funext fun a => Fin.ext (by match a with | ⟨0, _⟩ => rfl | ⟨1, _⟩ => rfl)

/-- The minimum over the rows of a 512 × 512 tile, from +∞, is at column `c` the infimum of that column. -/
theorem colMin_apply (v : FVec Ideal S512x512 .f32) (h : S512x512.Reduces [0] S512) (hφ : FKind.Formats .f32)
    (hacc : (0x7F800000#32 : BitVec 32) = FKind.minimumf.neutral .f32 hφ) (c : Fin 512) :
    multiReduction (F := Ideal) .minimumf [0] S512 v 0x7F800000#32 h hφ hacc (ix1 c)
      = Finset.univ.inf fun r : Fin 512 => v (ix2 r c) := by
  rw [multiReduction_minimumf_eq_fold]
  refine (h.fold_filter_drop_single _ _ v (ix1 c)).trans ?_
  show Finset.fold min (Ideal.ofBits .f32 0x7F800000#32) (fun r : Fin 512 => v (h.lift (ix1 c) r)) Finset.univ = _
  rw [ofBits_inf_f32]
  simp only [lift_col]
  exact fold_min_top_eq_inf _ _

/-- The minimum over the columns of a 512 × 512 tile, from +∞, is at row `r` the infimum of that row. -/
theorem rowMin_apply (v : FVec Ideal S512x512 .f32) (h : S512x512.Reduces [1] S512) (hφ : FKind.Formats .f32)
    (hacc : (0x7F800000#32 : BitVec 32) = FKind.minimumf.neutral .f32 hφ) (r : Fin 512) :
    multiReduction (F := Ideal) .minimumf [1] S512 v 0x7F800000#32 h hφ hacc (ix1 r)
      = Finset.univ.inf fun c : Fin 512 => v (ix2 r c) := by
  rw [multiReduction_minimumf_eq_fold]
  refine (h.fold_filter_drop_single _ _ v (ix1 r)).trans ?_
  show Finset.fold min (Ideal.ofBits .f32 0x7F800000#32) (fun c : Fin 512 => v (h.lift (ix1 r) c)) Finset.univ = _
  rw [ofBits_inf_f32]
  simp only [lift_row]
  exact fold_min_top_eq_inf _ _

/-- A vector cast to a one-column matrix reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The running column minima after the tile: at column `c`, the old value against the infimum of the
    tile's column. -/
theorem pay2_apply (v18 : FVec Ideal S512x512 .f32) (v40 : Vec Ideal S1x1x512 .f32) (c : Fin 512) :
    k0_pay2 (F := Ideal) v18 v40 (ix3 0 0 c)
      = min (v40 (ix3 0 0 c)) (Finset.univ.inf fun r : Fin 512 => v18 (ix2 r c)) := by
  unfold k0_pay2
  rw [shapeCast_ab_1ab_apply, minimumf_apply, shapeCast_1ab_ab_apply, shapeCast_a_1a_apply]
  exact congrArg (min (v40 (ix3 0 0 c))) (colMin_apply v18 _ _ _ c)

/-- The running row minima after the tile: at row `r`, the old value against the infimum of the tile's
    row. -/
theorem pay5_apply (x0 : Vec Ideal S1x512x3 .f32) (x1 : Vec Ideal S1x3x512 .f32) (v24 : Vec Ideal S1x512x1 .f32)
    (r : Fin 512) :
    k0_pay5 (F := Ideal) x0 x1 v24 (ix3 0 r 0)
      = min (v24 (ix3 0 r 0)) (Finset.univ.inf fun c : Fin 512 => k0_pay3 (F := Ideal) x0 x1 (ix2 r c)) := by
  unfold k0_pay5
  rw [shapeCast_ab_1ab_apply, minimumf_apply, shapeCast_1ab_ab_apply, shapeCast_a_a1_apply]
  exact congrArg (min (v24 (ix3 0 r 0))) (rowMin_apply (k0_pay3 (F := Ideal) x0 x1) _ _ _ r)

/-! ## The tile of clamped squared distances -/

/-- Over a row index `r` of the 512 × 3 point block, the index with coordinate `k` inserted. -/
theorem lift_point (h : S512x3.Reduces [1] S512) (r : Fin 512) (k : Fin 3) : h.lift (ix1 r) k = ix2 r k :=
  funext fun a => Fin.ext (by match a with | ⟨0, _⟩ => rfl | ⟨1, _⟩ => rfl)

/-- Over a column index `c` of the 3 × 512 point block, the index with coordinate `k` inserted. -/
theorem lift_coord (h : S3x512.Reduces [0] S512) (c : Fin 512) (k : Fin 3) : h.lift (ix1 c) k = ix2 k c :=
  funext fun a => Fin.ext (by match a with | ⟨0, _⟩ => rfl | ⟨1, _⟩ => rfl)

/-- The squared norm of the `r`-th point of the first block: the sum over its three coordinates. -/
theorem rowNorm_apply (x0 : Vec Ideal S1x512x3 .f32) (h1 : S1x512x3.ShapeCasts S512x3) (h : S512x3.Reduces [1] S512)
    (hφ : FKind.Formats .f32) (hacc : (0x00000000#32 : BitVec 32) = FKind.add.neutral .f32 hφ) (r : Fin 512) :
    multiReduction (F := Ideal) .add [1] S512
        (mulf (shapeCast S512x3 x0 h1 : FVec Ideal S512x3 .f32) (shapeCast S512x3 x0 h1 : FVec Ideal S512x3 .f32))
        0x00000000#32 h hφ hacc (ix1 r)
      = ∑ k : Fin 3, x0 (ix3 0 r k) * x0 (ix3 0 r k) := by
  refine (Ideal.multiReduction_add_single _ _ h hφ hacc (ix1 r)).trans ?_
  show ∑ k : Fin 3, _ = _
  refine Finset.sum_congr rfl fun k _ => ?_
  rw [lift_point h r k, mulf_apply, shapeCast_1ab_ab_apply]

/-- The squared norm of the `c`-th point of the second block: the sum over its three coordinates. -/
theorem colNorm_apply (x1 : Vec Ideal S1x3x512 .f32) (h1 : S1x3x512.ShapeCasts S3x512) (h : S3x512.Reduces [0] S512)
    (hφ : FKind.Formats .f32) (hacc : (0x00000000#32 : BitVec 32) = FKind.add.neutral .f32 hφ) (c : Fin 512) :
    multiReduction (F := Ideal) .add [0] S512
        (mulf (shapeCast S3x512 x1 h1 : FVec Ideal S3x512 .f32) (shapeCast S3x512 x1 h1 : FVec Ideal S3x512 .f32))
        0x00000000#32 h hφ hacc (ix1 c)
      = ∑ k : Fin 3, x1 (ix3 0 k c) * x1 (ix3 0 k c) := by
  refine (Ideal.multiReduction_add_single _ _ h hφ hacc (ix1 c)).trans ?_
  show ∑ k : Fin 3, _ = _
  refine Finset.sum_congr rfl fun k _ => ?_
  rw [lift_coord h c k, mulf_apply, shapeCast_1ab_ab_apply]

/-- The left operand's row coordinate at a product index is the result's row. -/
theorem lhs_cross_0 (i : S512x512.Idx) (q : dot_S512x3_S3x512_S512x512_1_0_0_1_n_n.contr.Idx) :
    (dot_S512x3_S3x512_S512x512_1_0_0_1_n_n.lhsIdx i q 0).val = (i 0).val := by
  unfold DotDims.lhsIdx
  rw [dif_neg (show ¬(0 : Fin S512x3.rank) ∈ dot_S512x3_S3x512_S512x512_1_0_0_1_n_n.lhsBatch by decide),
    dif_pos (show (0 : Fin S512x3.rank) ∈ dot_S512x3_S3x512_S512x512_1_0_0_1_n_n.lhsNonContracting by decide)]
  rfl
/-- The left operand's column coordinate at a product index is the contraction coordinate. -/
theorem lhs_cross_1 (i : S512x512.Idx) (q : dot_S512x3_S3x512_S512x512_1_0_0_1_n_n.contr.Idx) :
    (dot_S512x3_S3x512_S512x512_1_0_0_1_n_n.lhsIdx i q 1).val = (q ⟨0, by decide⟩).val :=
  dot_S512x3_S3x512_S512x512_1_0_0_1_n_n.lhsIdx_val_of_single rfl i q
/-- The right operand's row coordinate at a product index is the contraction coordinate. -/
theorem rhs_cross_0 (i : S512x512.Idx) (q : dot_S512x3_S3x512_S512x512_1_0_0_1_n_n.contr.Idx) :
    (dot_S512x3_S3x512_S512x512_1_0_0_1_n_n.rhsIdx i q 0).val = (q ⟨0, by decide⟩).val :=
  dot_S512x3_S3x512_S512x512_1_0_0_1_n_n.rhsIdx_val_of_single rfl i q
/-- The right operand's column coordinate at a product index is the result's column. -/
theorem rhs_cross_1 (i : S512x512.Idx) (q : dot_S512x3_S3x512_S512x512_1_0_0_1_n_n.contr.Idx) :
    (dot_S512x3_S3x512_S512x512_1_0_0_1_n_n.rhsIdx i q 1).val = (i 1).val := by
  unfold DotDims.rhsIdx
  rw [dif_neg (show ¬(1 : Fin S3x512.rank) ∈ dot_S512x3_S3x512_S512x512_1_0_0_1_n_n.rhsBatch by decide),
    dif_pos (show (1 : Fin S3x512.rank) ∈ dot_S512x3_S3x512_S512x512_1_0_0_1_n_n.rhsNonContracting by decide)]
  rfl

/-- The matrix product of a 512 × 3 block with a 3 × 512 block, into zero, is at `(r, c)` the sum over the
    three coordinates of the products. -/
theorem cross_apply (a : FVec Ideal S512x3 .f32) (b : FVec Ideal S3x512 .f32) (r c : Fin 512) :
    FloatOps.matmul dot_S512x3_S3x512_S512x512_1_0_0_1_n_n (some .fp32) a b
        (constant (F := Ideal) S512x512 .f32 0x00000000#32) (ix2 r c)
      = ∑ k : Fin 3, a (ix2 r k) * b (ix2 k c) := by
  rw [Ideal.matmul_constant_zero_apply,
    ← Equiv.sum_comp (contrEquiv1 dot_S512x3_S3x512_S512x512_1_0_0_1_n_n 3 rfl rfl).symm]
  refine Finset.sum_congr rfl fun k _ => ?_
  have hk := contrEquiv1_symm_val dot_S512x3_S3x512_S512x512_1_0_0_1_n_n 3 rfl rfl k
  have el : dot_S512x3_S3x512_S512x512_1_0_0_1_n_n.lhsIdx (ix2 r c)
      ((contrEquiv1 dot_S512x3_S3x512_S512x512_1_0_0_1_n_n 3 rfl rfl).symm k) = ix2 r k := funext fun ax => Fin.ext (by
    match ax with
    | ⟨0, _⟩ => exact lhs_cross_0 _ _
    | ⟨1, _⟩ => exact (lhs_cross_1 _ _).trans hk)
  have er : dot_S512x3_S3x512_S512x512_1_0_0_1_n_n.rhsIdx (ix2 r c)
      ((contrEquiv1 dot_S512x3_S3x512_S512x512_1_0_0_1_n_n 3 rfl rfl).symm k) = ix2 k c := funext fun ax => Fin.ext (by
    match ax with
    | ⟨0, _⟩ => exact (rhs_cross_0 _ _).trans hk
    | ⟨1, _⟩ => exact rhs_cross_1 _ _)
  rw [el, er]

/-- The cross term of the two point blocks, read through their leading unit axes. -/
theorem cross_cast_apply (x0 : Vec Ideal S1x512x3 .f32) (x1 : Vec Ideal S1x3x512 .f32)
    (h0 : S1x512x3.ShapeCasts S512x3) (h1 : S1x3x512.ShapeCasts S3x512) (r c : Fin 512) :
    FloatOps.matmul dot_S512x3_S3x512_S512x512_1_0_0_1_n_n (some .fp32)
        (shapeCast S512x3 x0 h0 : FVec Ideal S512x3 .f32) (shapeCast S3x512 x1 h1 : FVec Ideal S3x512 .f32)
        (constant (F := Ideal) S512x512 .f32 0x00000000#32) (ix2 r c)
      = ∑ k : Fin 3, x0 (ix3 0 r k) * x1 (ix3 0 k c) := by
  rw [cross_apply]
  refine Finset.sum_congr rfl fun k _ => ?_
  rw [shapeCast_1ab_ab_apply, shapeCast_1ab_ab_apply]

/-- The tile of clamped squared distances: at `(r, c)`, the two squared norms, less twice the inner
    product, clamped below at zero. -/
theorem pay3_apply (x0 : Vec Ideal S1x512x3 .f32) (x1 : Vec Ideal S1x3x512 .f32) (r c : Fin 512) :
    k0_pay3 (F := Ideal) x0 x1 (ix2 r c)
      = max (((∑ k : Fin 3, x0 (ix3 0 r k) * x0 (ix3 0 r k)) + (∑ k : Fin 3, x1 (ix3 0 k c) * x1 (ix3 0 k c)))
              - Ideal.ofBits .f32 0x40000000#32 * (∑ k : Fin 3, x0 (ix3 0 r k) * x1 (ix3 0 k c)))
            (Ideal.ofBits .f32 0x00000000#32) := by
  unfold k0_pay3
  rw [maximumf_apply, subf_apply, addf_apply, mulf_apply, broadcast_apply, broadcast_apply,
    broadcastTo_a1_ab_apply, broadcastTo_1b_ab_apply, shapeCast_a_a1_apply, shapeCast_a_1a_apply]
  refine congrArg₂ max (congrArg₂ (· - ·) (congrArg₂ (· + ·) ?_ ?_) (congrArg (_ * ·) ?_)) rfl
  · exact rowNorm_apply x0 _ _ _ _ r
  · exact colNorm_apply x1 _ _ _ _ c
  · exact cross_cast_apply x0 x1 _ _ r c

end Cert.KernelIdeal.PayValue

end
-- ==== Proof.MinFold.lean ====
/-
  Running minima over the extended reals.

  A minimum is `Finset.inf`, the fold of `min` from `⊤`.  A running minimum that is reset to `⊤` at the
  start of every group of steps and folds one part per step holds, at the last step of a group, the minimum of
  all the parts of that group.  A minimum over 4096 = 8 × 512 indices regroups by tiles of 512.
-/
import Mathlib.Data.EReal.Basic
import Mathlib.Data.Finset.Lattice.Fold
import Mathlib.Tactic

namespace Cert.Chamfer

/-- A minimum over `Fin n` is the minimum over `range n`. -/
theorem inf_univ_fin_eq_range (n : ℕ) (f : ℕ → EReal) :
    (Finset.univ.inf fun i : Fin n => f i.val) = (Finset.range n).inf f := by
  apply le_antisymm
  · apply Finset.le_inf
    intro i hi
    have hi' : i < n := Finset.mem_range.mp hi
    exact Finset.inf_le (f := fun i : Fin n => f i.val) (Finset.mem_univ (⟨i, hi'⟩ : Fin n))
  · apply Finset.le_inf
    intro i _
    exact Finset.inf_le (Finset.mem_range.mpr i.isLt)

/-- A minimum over 4096 = 8 × 512 indices, regrouped by tiles of 512. -/
theorem inf_range_tiles (f : ℕ → EReal) :
    (Finset.range 4096).inf f = (Finset.range 8).inf fun j => (Finset.range 512).inf fun c => f (j * 512 + c) := by
  apply le_antisymm
  · apply Finset.le_inf
    intro j hj
    apply Finset.le_inf
    intro c hc
    apply Finset.inf_le
    have hj' : j < 8 := Finset.mem_range.mp hj
    have hc' : c < 512 := Finset.mem_range.mp hc
    exact Finset.mem_range.mpr (by omega)
  · apply Finset.le_inf
    intro i hi
    have hi' : i < 4096 := Finset.mem_range.mp hi
    have h1 : i / 512 ∈ Finset.range 8 := Finset.mem_range.mpr (by omega)
    have h2 : i % 512 ∈ Finset.range 512 := Finset.mem_range.mpr (by omega)
    have e : i / 512 * 512 + i % 512 = i := by omega
    calc ((Finset.range 8).inf fun j => (Finset.range 512).inf fun c => f (j * 512 + c))
        ≤ (Finset.range 512).inf fun c => f (i / 512 * 512 + c) :=
          Finset.inf_le (f := fun j => (Finset.range 512).inf fun c => f (j * 512 + c)) h1
      _ ≤ f (i / 512 * 512 + i % 512) :=
          Finset.inf_le (f := fun c => f (i / 512 * 512 + c)) h2
      _ = f i := by rw [e]

/-- A running minimum over groups of 8 consecutive steps, reset to `⊤` at the steps ≡ 0 (mod 8): at the last
step of a group it is the minimum of the group's 8 parts.  The recurrence is only asked below a bound `N`. -/
theorem rowAcc_closed {α : Type} (A rp : ℕ → α → EReal) (N : ℕ)
    (h0 : ∀ r, A 0 r = min ⊤ (rp 0 r))
    (hs : ∀ t r, t + 1 < N → A (t + 1) r = min (if (t + 1) % 8 = 0 then ⊤ else A t r) (rp (t + 1) r))
    (t : ℕ) (htN : t < N) (ht : t % 8 = 7) (r : α) :
    A t r = (Finset.range 8).inf fun j => rp (t - 7 + j) r := by
  -- at every step the accumulator is the minimum of the parts of its group seen so far
  have key : ∀ t, t < N → A t r = (Finset.range (t % 8 + 1)).inf fun j => rp (t - t % 8 + j) r := by
    intro t
    induction t with
    | zero =>
      intro _
      rw [h0]
      simp
    | succ t ih =>
      intro hN
      have ih' := ih (by omega)
      rw [hs t r hN]
      by_cases h : (t + 1) % 8 = 0
      · rw [if_pos h, h]
        simp
      · rw [if_neg h]
        have e1 : (t + 1) % 8 = t % 8 + 1 := by omega
        have e2 : t + 1 - (t + 1) % 8 = t - t % 8 := by omega
        have e3 : t - t % 8 + (t % 8 + 1) = t + 1 := by omega
        rw [e2, e1, Finset.range_add_one (n := t % 8 + 1), Finset.inf_insert, e3, ← ih']
        exact min_comm _ _
  have h := key t htN
  rw [ht] at h
  exact h

/-- The minimum over the tile-rows `n' < 8` with `n' * 8 + q ≤ 0`: only `n' = 0`, and only when `q = 0`. -/
theorem inf_filter_zero (q : ℕ) (g : ℕ → EReal) :
    ((Finset.range 8).filter fun n' => n' * 8 + q ≤ 0).inf g = if q = 0 then g 0 else ⊤ := by
  by_cases hq : q = 0
  · have hf : ((Finset.range 8).filter fun n' => n' * 8 + q ≤ 0) = {0} := by
      ext n'
      simp only [Finset.mem_filter, Finset.mem_range, Finset.mem_singleton]
      omega
    rw [hf, Finset.inf_singleton, if_pos hq]
  · have hf : ((Finset.range 8).filter fun n' => n' * 8 + q ≤ 0) = ∅ := by
      apply Finset.filter_eq_empty_iff.mpr
      intro n' _
      omega
    rw [hf, Finset.inf_empty, if_neg hq]

/-- A row of 4096 running minima swept in groups of 64 steps (8 × 8 tiles, step `s` of a group facing the 512
columns of tile-column `s % 8` with the rows of tile-row `s / 8`), reset to `⊤` at the steps ≡ 0 (mod 64): at the
last step of a group each column holds the minimum over the 8 tile-rows of its tile-column's parts.  The
recurrence is only asked below a bound `N`. -/
theorem colAcc_closed (A cp : ℕ → ℕ → EReal) (N : ℕ)
    (h0 : ∀ col, col < 4096 → A 0 col = if col / 512 = 0 then min ⊤ (cp 0 (col % 512)) else ⊤)
    (hs : ∀ t col, t + 1 < N → col < 4096 → A (t + 1) col =
      if col / 512 = (t + 1) % 8 then min (if (t + 1) % 64 = 0 then ⊤ else A t col) (cp (t + 1) (col % 512))
      else (if (t + 1) % 64 = 0 then ⊤ else A t col))
    (t : ℕ) (htN : t < N) (ht : t % 64 = 63) (col : ℕ) (hcol : col < 4096) :
    A t col = (Finset.range 8).inf fun n' => cp (t - 63 + n' * 8 + col / 512) (col % 512) := by
  have hq8 : col / 512 < 8 := by omega
  -- at every step a column holds the minimum over the tile-rows of its group already swept at its tile-column
  have key : ∀ t, t < N → A t col =
      ((Finset.range 8).filter fun n' => n' * 8 + col / 512 ≤ t % 64).inf
        fun n' => cp (t - t % 64 + n' * 8 + col / 512) (col % 512) := by
    intro t
    induction t with
    | zero =>
      intro _
      have e : (0 : ℕ) % 64 = 0 := by omega
      rw [h0 col hcol, e, inf_filter_zero]
      by_cases hq : col / 512 = 0
      · rw [if_pos hq, if_pos hq, hq]
        simp
      · rw [if_neg hq, if_neg hq]
    | succ t ih =>
      intro hN
      have ih' := ih (by omega)
      rw [hs t col hN hcol]
      by_cases h64 : (t + 1) % 64 = 0
      · have h8 : (t + 1) % 8 = 0 := by omega
        simp only [if_pos h64]
        rw [h8, h64, inf_filter_zero]
        by_cases hq : col / 512 = 0
        · rw [if_pos hq, if_pos hq, hq]
          simp
        · rw [if_neg hq, if_neg hq]
      · simp only [if_neg h64]
        have e1 : (t + 1) % 64 = t % 64 + 1 := by omega
        have e2 : t + 1 - (t + 1) % 64 = t - t % 64 := by omega
        rw [e2, e1]
        by_cases hq : col / 512 = (t + 1) % 8
        · rw [if_pos hq]
          have hf : ((Finset.range 8).filter fun n' => n' * 8 + col / 512 ≤ t % 64 + 1)
              = insert ((t % 64 + 1) / 8)
                  ((Finset.range 8).filter fun n' => n' * 8 + col / 512 ≤ t % 64) := by
            ext n'
            simp only [Finset.mem_filter, Finset.mem_range, Finset.mem_insert]
            omega
          have e3 : t - t % 64 + (t % 64 + 1) / 8 * 8 + col / 512 = t + 1 := by omega
          rw [hf, Finset.inf_insert, e3, ← ih']
          exact min_comm _ _
        · rw [if_neg hq]
          have hf : ((Finset.range 8).filter fun n' => n' * 8 + col / 512 ≤ t % 64 + 1)
              = ((Finset.range 8).filter fun n' => n' * 8 + col / 512 ≤ t % 64) := by
            ext n'
            simp only [Finset.mem_filter, Finset.mem_range]
            omega
          rw [hf]
          exact ih'
  have h := key t htN
  rw [ht] at h
  have hf : ((Finset.range 8).filter fun n' => n' * 8 + col / 512 ≤ 63) = Finset.range 8 := by
    ext n'
    simp only [Finset.mem_filter, Finset.mem_range]
    omega
  rw [hf] at h
  exact h

end Cert.Chamfer
-- ==== Proof.KIBlocks.lean ====
import proofs.«174689_j45406394253980_1_alg».proof.Proof.Gen.KernelIdeal.Frame
import proofs.«174689_j45406394253980_1_alg».proof.Proof.Gen.KernelIdeal.Skeleton
import proofs.«174689_j45406394253980_1_alg».proof.Proof.Spec
import proofs.«174689_j45406394253980_1_alg».proof.Proof.PayValue
import Idealize.ShloMosaic.Lib.StableHlo.Run
import Idealize.ShloMosaic.Lib.Pipeline.Value
import Idealize.ShloMosaic.Lib.ValueLayout
import Idealize.ShloMosaic.Lib.ValueIdx

/-!
# The two point tiles at a grid point, and the tile of distances they give

The grid is 8 × 8 × 8: point number `t = b · 64 + n · 8 + mm` is batch `b`, row block `n`, column block `mm`.
At that point the first input block is rows `n · 512 … n · 512 + 511` of batch `b` of the first cloud, and the
second input block is columns `mm · 512 … mm · 512 + 511` of batch `b` of the second cloud with its last two axes
exchanged, that is, points `mm · 512 … mm · 512 + 511` of the second cloud read coordinate-first.
Hence the 512 × 512 tile computed there holds, at `(r, cc)`, the clamped expanded squared distance
`max ((|P b i|² + |G b j|²) - 2 · ⟨P b i, G b j⟩) 0` at `i = n · 512 + r`, `j = mm · 512 + cc`.
-/

set_option maxRecDepth 16384

noncomputable section

namespace Cert.KernelIdeal.Blocks

open Cert.KernelIdeal Cert.KernelIdeal.Gen Idealize.ShloMosaic Idealize.ShloMosaic.TcCoe Idealize.ShloMosaic.ValueIdx Cert.Chamfer

variable (m : (ℓ : Loc nD τ sig) → Buf (Elt Ideal) ℓ)

/-- The first cloud, read by coordinates: batch, point, coordinate. -/
abbrev P (c : Dev nD) : Cert.Chamfer.Pts := curry3 (m ((c : Thread nD τ).loc main_arg0))
/-- The second cloud, read by coordinates: batch, point, coordinate. -/
abbrev G (c : Dev nD) : Cert.Chamfer.Pts := curry3 (m ((c : Thread nD τ).loc main_arg1))

/-- The block indices of the two input blocks at point `t` of the 8 × 8 × 8 grid: the first block is
    `(t / 64, t / 8 % 8, 0)`, the second `(t / 64, 0, t % 8)`. Decided over the 512 points. -/
theorem idx_facts : ∀ t : Fin cfg0.N, win0_0.index t (0 : Fin 3) = t.val / 64 ∧ win0_0.index t (1 : Fin 3) = t.val / 8 % 8
    ∧ win0_0.index t (2 : Fin 3) = 0 ∧ win0_1.index t (0 : Fin 3) = t.val / 64 ∧ win0_1.index t (1 : Fin 3) = 0
    ∧ win0_1.index t (2 : Fin 3) = t.val % 8 :=
  (by decide +kernel : ∀ t : Fin grid0.N, _)

/-- The first point tile at grid point (b, n, ·): row r of the tile is point n · 512 + r of batch b of the first cloud. -/
theorem blk0_apply (c : Dev nD) (t : Fin cfg0.N) (b n mm : Fin 8) (ht : t.val = b.val * 64 + n.val * 8 + mm.val) (r : Fin 512) (k : Fin 3) :
    (iblk m c 0 t : S1x512x3.Idx → EReal) (ix3 0 r k) = P m c b ⟨n.val * 512 + r.val, by omega⟩ k := by
  unfold iblk
  rw [View.read_apply]
  obtain ⟨e0, e1, e2, e3, e4, e5⟩ := idx_facts t
  show V m c main_arg0 (((cfg0.win 0).blk t).view.emb (ix3 0 r k)) = m ((c : Thread nD τ).loc main_arg0) (ix3 b ⟨n.val * 512 + r.val, by omega⟩ k)
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * r.val = n.val * 512 + r.val; omega
  | ⟨2, _⟩ => show win0_0.index t (2 : Fin 3) * 3 + 1 * k.val = k.val; omega

/-- The array the second window stages is the second cloud with its last two axes exchanged. -/
theorem V_main_v0 (c : Dev nD) : (V m c main_v0 : S8x3x4096.Idx → EReal)
    = transpose S8x3x4096 [0, 2, 1] (m ((c : Thread nD τ).loc main_arg1)) transposes_S8x4096x3_S8x3x4096_0_2_1 := by
  dsimp only [Gen.V, Gen.V0]
  simp only [hostOps0, List.flatten_cons, List.flatten_nil, List.append_nil]
  after_results

/-- The second point tile at grid point (b, ·, mm): column cc of the tile is point mm · 512 + cc of batch b of the second cloud. -/
theorem blk1_apply (c : Dev nD) (t : Fin cfg0.N) (b n mm : Fin 8) (ht : t.val = b.val * 64 + n.val * 8 + mm.val) (k : Fin 3) (cc : Fin 512) :
    (iblk m c 1 t : S1x3x512.Idx → EReal) (ix3 0 k cc) = G m c b ⟨mm.val * 512 + cc.val, by omega⟩ k := by
  unfold iblk
  rw [View.read_apply]
  obtain ⟨e0, e1, e2, e3, e4, e5⟩ := idx_facts t
  show (V m c main_v0 : S8x3x4096.Idx → EReal) (((cfg0.win 1).blk t).view.emb (ix3 0 k cc)) = m ((c : Thread nD τ).loc main_arg1) (ix3 b ⟨mm.val * 512 + cc.val, by omega⟩ k)
  rw [V_main_v0]
  have hidx : ((cfg0.win 1).blk t).view.emb (ix3 0 k cc) = (ix3 b k ⟨mm.val * 512 + cc.val, by omega⟩ : S8x3x4096.Idx) := by
    funext a; apply Fin.ext
    match a with
    | ⟨0, _⟩ => show win0_1.index t (0 : Fin 3) * 1 + 1 * 0 = b.val; omega
    | ⟨1, _⟩ => show win0_1.index t (1 : Fin 3) * 3 + 1 * k.val = k.val; omega
    | ⟨2, _⟩ => show win0_1.index t (2 : Fin 3) * 512 + 1 * cc.val = mm.val * 512 + cc.val; omega
  rw [hidx]
  exact transpose_ix3_021_apply _ _ b k ⟨mm.val * 512 + cc.val, by omega⟩

/-- The tile of clamped squared distances at grid point (b, n, mm): entry (r, cc) is the distance of point n · 512 + r of the
    first cloud and point mm · 512 + cc of the second, in batch b. -/
theorem tile_dist (c : Dev nD) (t : Fin cfg0.N) (b n mm : Fin 8) (ht : t.val = b.val * 64 + n.val * 8 + mm.val) (r cc : Fin 512) :
    k0_pay3 (F := Ideal) (iblk m c 0 t) (iblk m c 1 t) (ix2 r cc)
      = dist (P m c) (G m c) b ⟨n.val * 512 + r.val, by omega⟩ ⟨mm.val * 512 + cc.val, by omega⟩ := by
  refine (PayValue.pay3_apply (iblk m c 0 t) (iblk m c 1 t) r cc).trans ?_
  have h0 : ∀ k : Fin 3, (iblk m c 0 t : S1x512x3.Idx → EReal) (ix3 0 r k) = P m c b ⟨n.val * 512 + r.val, by omega⟩ k :=
    fun k => blk0_apply m c t b n mm ht r k
  have h1 : ∀ k : Fin 3, (iblk m c 1 t : S1x3x512.Idx → EReal) (ix3 0 k cc) = G m c b ⟨mm.val * 512 + cc.val, by omega⟩ k :=
    fun k => blk1_apply m c t b n mm ht k cc
  unfold Cert.Chamfer.dist Cert.Chamfer.sqn Cert.Chamfer.cross Cert.Chamfer.c2 Cert.Chamfer.c0
  simp only [h0, h1]

end Cert.KernelIdeal.Blocks

end
-- ==== Proof.KIRows.lean ====
import proofs.«174689_j45406394253980_1_alg».proof.Proof.KIData
import proofs.«174689_j45406394253980_1_alg».proof.Proof.PayValue
import proofs.«174689_j45406394253980_1_alg».proof.Proof.Spec
import proofs.«174689_j45406394253980_1_alg».proof.Proof.MinFold
import proofs.«174689_j45406394253980_1_alg».proof.Proof.KIBlocks
import Idealize.ShloMosaic.Lib.Pipeline.Value
import Idealize.ShloMosaic.Lib.ValueIdx

/-!
# The first output: each point's nearest neighbour in the other cloud

The kernel keeps, for the 512 points of one block of the first cloud, a running minimum that is restarted from +∞
at the first of eight consecutive grid points, folded at each of them with the row minima of one 512 × 512 tile of
clamped squared distances, and written back at the last. The eight tiles face the eight blocks of the second cloud,
so what is written back is the minimum over all 4096 points of the second cloud; and the blocks written back tile
the whole array.
-/

set_option maxRecDepth 16384

noncomputable section

namespace Cert.KernelIdeal.Rows

open Cert.KernelIdeal Cert.KernelIdeal.Gen Cert.KernelIdeal.Body Cert.KernelIdeal.Blocks Cert.KernelIdeal.PayValue Cert.Chamfer
open Idealize.ShloMosaic Idealize.ShloMosaic.TcCoe Idealize.ShloMosaic.ValueIdx

variable (m : (ℓ : Loc nD τ sig) → Buf (Elt Ideal) ℓ)

/-- The grid has 512 points. -/
theorem hN : cfg0.N = 512 := N_0

/-! ## The minimum over the second cloud, regrouped by its eight blocks -/

/-- The distances from one point of the first cloud, listed by the number of the point of the second cloud
    (+∞ past the last). -/
def distN (P G : Pts) (b : Fin 8) (nn : Fin 4096) (k : ℕ) : EReal :=
  if h : k < 4096 then Cert.Chamfer.dist P G b nn ⟨k, h⟩ else ⊤

theorem distN_of_lt (P G : Pts) (b : Fin 8) (nn : Fin 4096) (k : ℕ) (h : k < 4096) :
    distN P G b nn k = Cert.Chamfer.dist P G b nn ⟨k, h⟩ := dif_pos h

/-- The nearest-neighbour distance regroups into the minimum over the eight blocks of 512 points. -/
theorem p2g_tiles (P G : Pts) (b : Fin 8) (nn : Fin 4096) :
    p2g P G b nn = Finset.univ.inf fun mm : Fin 8 => Finset.univ.inf fun cc : Fin 512 =>
      Cert.Chamfer.dist P G b nn ⟨mm.val * 512 + cc.val, by omega⟩ := by
  unfold p2g
  have e1 : (Finset.univ.inf fun k : Fin 4096 => Cert.Chamfer.dist P G b nn k)
      = Finset.univ.inf fun i : Fin 4096 => distN P G b nn i.val :=
    Finset.inf_congr rfl fun i _ => (distN_of_lt P G b nn i.val i.isLt).symm
  rw [e1, inf_univ_fin_eq_range 4096 (distN P G b nn), inf_range_tiles]
  refine (inf_univ_fin_eq_range 8 _).symm.trans (Finset.inf_congr rfl fun mm _ => ?_)
  refine (inf_univ_fin_eq_range 512 _).symm.trans (Finset.inf_congr rfl fun cc _ => ?_)
  exact distN_of_lt P G b nn _ (by omega)

/-! ## The running minimum as a function of the point number -/

/-- The running row minimum after point number `t`, at row `r` of the block (+∞ past the grid). -/
def rowAcc (c : Dev nD) (t : ℕ) (r : Fin 512) : EReal :=
  if h : t < cfg0.N then (acc2 m c t h : S1x512x1.Idx → EReal) (ix3 0 r 0) else ⊤

/-- The row minimum of the tile met at point number `t`, at row `r` (+∞ past the grid). -/
def rowPart (c : Dev nD) (t : ℕ) (r : Fin 512) : EReal :=
  if h : t < cfg0.N then
    Finset.univ.inf fun cc : Fin 512 => k0_pay3 (F := Ideal) (xb0 m c ⟨t, h⟩) (xb1 m c ⟨t, h⟩) (ix2 r cc)
  else ⊤

/-- At the first point the running minimum is the first tile's row minimum against +∞. -/
theorem rowAcc_zero (c : Dev nD) (r : Fin 512) : rowAcc m c 0 r = min ⊤ (rowPart m c 0 r) := by
  have h : 0 < cfg0.N := by rw [hN]; omega
  unfold rowAcc rowPart
  rw [dif_pos h, dif_pos h]
  rw [acc2, pay5_apply, pay4_apply]

/-- At every later point it is the tile's row minimum against what the point before left, or against +∞ at a
    restart. -/
theorem rowAcc_succ (c : Dev nD) (t : ℕ) (r : Fin 512) (h : t + 1 < cfg0.N) :
    rowAcc m c (t + 1) r = min (if (t + 1) % 8 = 0 then ⊤ else rowAcc m c t r) (rowPart m c (t + 1) r) := by
  have h' : t < cfg0.N := Nat.lt_of_succ_lt h
  unfold rowAcc rowPart
  rw [dif_pos h, dif_pos h, dif_pos h', acc2, pay5_apply]
  congr 1
  split_ifs with h8
  · exact pay4_apply _
  · rfl

/-- At the last point of a group of eight the running minimum is the minimum of the group's eight tiles. -/
theorem rowAcc_last (c : Dev nD) (t : ℕ) (ht : t < cfg0.N) (h7 : t % 8 = 7) (r : Fin 512) :
    rowAcc m c t r = (Finset.range 8).inf fun j => rowPart m c (t - 7 + j) r :=
  rowAcc_closed (rowAcc m c) (rowPart m c) cfg0.N (rowAcc_zero m c) (fun t r h => rowAcc_succ m c t r h) t ht h7 r

/-- A tile's row minimum is the minimum of the distances to one block of the second cloud. -/
theorem rowPart_eq (c : Dev nD) (b n mm : Fin 8) (r : Fin 512) :
    rowPart m c (b.val * 64 + n.val * 8 + mm.val) r
      = Finset.univ.inf fun cc : Fin 512 =>
          Cert.Chamfer.dist (P m c) (G m c) b ⟨n.val * 512 + r.val, by omega⟩ ⟨mm.val * 512 + cc.val, by omega⟩ := by
  have h : b.val * 64 + n.val * 8 + mm.val < cfg0.N := by rw [hN]; omega
  unfold rowPart
  rw [dif_pos h]
  refine Finset.inf_congr rfl fun cc _ => ?_
  exact tile_dist m c ⟨_, h⟩ b n mm rfl r cc

/-- What the block holds at a write-back point: each of its points' nearest-neighbour distance. -/
theorem acc2_last (c : Dev nD) (t : Fin cfg0.N) (b n : Fin 8) (ht : t.val = b.val * 64 + n.val * 8 + 7) (r : Fin 512) :
    (acc2 m c t.val t.isLt : S1x512x1.Idx → EReal) (ix3 0 r 0)
      = p2g (P m c) (G m c) b ⟨n.val * 512 + r.val, by omega⟩ := by
  have e : (acc2 m c t.val t.isLt : S1x512x1.Idx → EReal) (ix3 0 r 0) = rowAcc m c t.val r := by
    unfold rowAcc; rw [dif_pos t.isLt]
  rw [e, rowAcc_last m c t.val t.isLt (by omega) r, ← inf_univ_fin_eq_range 8, p2g_tiles]
  refine Finset.inf_congr rfl fun mm _ => ?_
  rw [show t.val - 7 + mm.val = b.val * 64 + n.val * 8 + mm.val by omega, rowPart_eq]

/-! ## From the blocks to the array -/

/-- The block of the first output at each grid point: the batch, the block of the first cloud, and 0. -/
theorem rows_index : ∀ t : Fin cfg0.N, win0_2.index t (0 : Fin 3) = t.val / 64
    ∧ win0_2.index t (1 : Fin 3) = t.val / 8 % 8 ∧ win0_2.index t (2 : Fin 3) = 0 :=
  (by decide +kernel : ∀ t : Fin grid0.N, _)

/-- What the first output ends holding: at `(b, n, 0)` the nearest-neighbour distance of point `n` of batch `b`. -/
abbrev rowsArr (c : Dev nD) : S8x4096x1.Idx → EReal :=
  fun i => p2g (P m c) (G m c) ⟨(i 0).val, (i 0).isLt⟩ ⟨(i 1).val, (i 1).isLt⟩

/-- What a write-back point writes back is its block of that array. -/
theorem flushed_rows (c : Dev nD) (t : Fin cfg0.N) (h7 : t.val % 8 = 7) :
    (dats m 0 c).flushed 2 t = ((cfg0.win 2).blk t).view.read (Elt Ideal) (rowsArr m c) := by
  show (cfg0.win 2).cut (grid0.coords t) ((dats m 0 c).after 2 t) = _
  rw [after0_2]
  obtain ⟨e0, e1, e2⟩ := rows_index t
  have ht512 : t.val < 512 := lt_of_lt_of_eq t.isLt hN
  funext j
  rw [View.read_apply]
  have hj0 : (j 0).val < 1 := (j 0).isLt
  have hj1 : (j 1).val < 512 := (j 1).isLt
  have hj2 : (j 2).val < 1 := (j 2).isLt
  have hx : (cfg0.win 2).xinj (grid0.coords t) j = ix3 (0 : Fin 1) (⟨(j 1).val, hj1⟩ : Fin 512) (0 : Fin 1) :=
    funext fun a => Fin.ext (by
      match a with
      | ⟨0, _⟩ => show (j 0).val = 0; omega
      | ⟨1, _⟩ => rfl
      | ⟨2, _⟩ => show (j 2).val = 0; omega)
  have hemb : ((cfg0.win 2).blk t).view.emb j
      = ix3 (⟨t.val / 64, by omega⟩ : Fin 8) (⟨t.val / 8 % 8 * 512 + (j 1).val, by omega⟩ : Fin 4096) (0 : Fin 1) :=
    funext fun a => Fin.ext (by
      match a with
      | ⟨0, _⟩ => show win0_2.index t (0 : Fin 3) * 1 + 1 * (j 0).val = t.val / 64; omega
      | ⟨1, _⟩ => show win0_2.index t (1 : Fin 3) * 512 + 1 * (j 1).val = t.val / 8 % 8 * 512 + (j 1).val; omega
      | ⟨2, _⟩ => show win0_2.index t (2 : Fin 3) * 1 + 1 * (j 2).val = 0; omega)
  show (acc2 m c t.val t.isLt : S1x512x1.Idx → EReal) ((cfg0.win 2).xinj (grid0.coords t) j)
    = rowsArr m c (((cfg0.win 2).blk t).view.emb j)
  rw [hx, hemb]
  exact acc2_last m c t ⟨t.val / 64, by omega⟩ ⟨t.val / 8 % 8, by omega⟩
    (by show t.val = t.val / 64 * 64 + t.val / 8 % 8 * 8 + 7; omega) ⟨(j 1).val, hj1⟩

/-- An index of the array is in a point's block iff each coordinate is in the block's range on its axis. -/
theorem mem_rows (t : Fin cfg0.N) (i : S8x4096x1.Idx) :
    i ∈ ((cfg0.win 2).blk t).view.set ↔ ∀ a : Fin 3, win0_2.index t a * S1x512x1.size a ≤ (i a).val
      ∧ (i a).val < win0_2.index t a * S1x512x1.size a + S1x512x1.size a := by
  show i ∈ ((View.whole main_v1_0).slice (win0_2.rect t)).set ↔ _
  rw [View.set_slice_whole, Rect.mem_set_unit]
  exact Iff.rfl

/-- THE FIRST OUTPUT after the run: each point's nearest-neighbour distance in the second cloud. -/
theorem final_p2g (c : Dev nD) (b : Fin 8) (nn : Fin 4096) :
    ((dats m 0 c).arrAt 2 cfg0.N : S8x4096x1.Idx → EReal) (ix3 b nn 0) = p2g (P m c) (G m c) b nn := by
  have ht : b.val * 64 + nn.val / 512 * 8 + 7 < cfg0.N := by rw [hN]; omega
  have e0 : win0_2.index ⟨_, ht⟩ (0 : Fin 3) = (b.val * 64 + nn.val / 512 * 8 + 7) / 64 := (rows_index ⟨_, ht⟩).1
  have e1 : win0_2.index ⟨_, ht⟩ (1 : Fin 3) = (b.val * 64 + nn.val / 512 * 8 + 7) / 8 % 8 := (rows_index ⟨_, ht⟩).2.1
  have e2 : win0_2.index ⟨_, ht⟩ (2 : Fin 3) = 0 := (rows_index ⟨_, ht⟩).2.2
  refine (dats m 0 c).arrAt_apply_of_mem 2 (rowsArr m c) (fun t hf => flushed_rows m c t ((flush0_2 t).mp hf)) cfg0.N
    ⟨_, ht⟩ (ix3 b nn 0) ht ((flush0_2 _).mpr (by show (b.val * 64 + nn.val / 512 * 8 + 7) % 8 = 7; omega)) ?_
  rw [mem_rows]
  intro a
  match a with
  | ⟨0, _⟩ =>
    show win0_2.index ⟨_, ht⟩ (0 : Fin 3) * 1 ≤ b.val ∧ b.val < win0_2.index ⟨_, ht⟩ (0 : Fin 3) * 1 + 1
    omega
  | ⟨1, _⟩ =>
    show win0_2.index ⟨_, ht⟩ (1 : Fin 3) * 512 ≤ nn.val ∧ nn.val < win0_2.index ⟨_, ht⟩ (1 : Fin 3) * 512 + 512
    omega
  | ⟨2, _⟩ =>
    show win0_2.index ⟨_, ht⟩ (2 : Fin 3) * 1 ≤ 0 ∧ 0 < win0_2.index ⟨_, ht⟩ (2 : Fin 3) * 1 + 1
    omega

end Cert.KernelIdeal.Rows

end
-- ==== Proof.KICols.lean ====
import proofs.«174689_j45406394253980_1_alg».proof.Proof.KIData
import proofs.«174689_j45406394253980_1_alg».proof.Proof.PayValue
import proofs.«174689_j45406394253980_1_alg».proof.Proof.Spec
import proofs.«174689_j45406394253980_1_alg».proof.Proof.MinFold
import proofs.«174689_j45406394253980_1_alg».proof.Proof.KIBlocks
import Idealize.ShloMosaic.Lib.Pipeline.Value
import Idealize.ShloMosaic.Lib.ValueIdx

set_option maxRecDepth 16384

/-!
# The second output: the running column minima end at the nearest-neighbour table

At the extended reals, the second output array `[8, 1, 4096]` ends holding, at `(b, 0, k)`, the minimum over ALL 4096
points of the first cloud of the clamped squared distance to point `k` of the second cloud, although it is folded tile
by tile. The block of batch `b` (one row of 4096 running minima) restarts from +∞ at the first of the batch's 64 points;
at point `b·64 + n·8 + mm` its 512-wide slice `[mm·512, mm·512 + 512)` is folded with the column minima of the
512 × 512 tile `(n, mm)` of distances; it is written back at the batch's last point. A column `k` therefore meets the
eight tiles `(n, k / 512)`, `n < 8`, each contributing the minimum over its 512 rows, and a minimum over 4096 = 8 × 512
indices regroups by tiles of 512.
-/

noncomputable section

namespace Cert.KernelIdeal.Cols

open Cert.KernelIdeal Cert.KernelIdeal.Gen Cert.KernelIdeal.Body Cert.KernelIdeal.PayValue Cert.Chamfer
open Cert.KernelIdeal.Blocks
open Idealize.ShloMosaic Idealize.ShloMosaic.TcCoe Idealize.ShloMosaic.ValueIdx

/-- The second output's block after the body, read at column `col`: inside the 512-wide slice the tile faces, the old
    value against the infimum of the tile's column; outside it, the old value. -/
theorem faced_apply (i : grid0.Coords) (mm : Fin 8) (hi : (i 2).val = mm.val) (x0 : Vec Ideal S1x512x3 .f32) (x1 : Vec Ideal S1x3x512 .f32) (Y : Vec Ideal S1x1x4096 .f32) (col : Fin 4096) :
    faced (F := Ideal) i x0 x1 Y (ix3 0 0 col)
      = if col.val / 512 = mm.val then min (Y (ix3 0 0 col)) (Finset.univ.inf fun r : Fin 512 => k0_pay3 (F := Ideal) x0 x1 (ix2 r ⟨col.val % 512, Nat.mod_lt _ (by norm_num)⟩))
        else Y (ix3 0 0 col) := by
  have hcol : col.val < 4096 := col.isLt
  have hmm : mm.val < 8 := mm.isLt
  unfold faced
  by_cases h : col.val / 512 = mm.val
  · rw [if_pos h]
    have hc : col.val % 512 < 512 := Nat.mod_lt _ (by norm_num)
    have e : (ix3 0 0 col : S1x1x4096.Idx) = (facing i).emb (ix3 0 0 ⟨col.val % 512, hc⟩ : S1x1x512.Idx) := by
      funext a; apply Fin.ext
      rw [Rect.emb_apply]
      match a with
      | ⟨0, _⟩ => show 0 = k0_off1 i 0 + 1 * 0; rw [k0_off1_eq]; rfl
      | ⟨1, _⟩ => show 0 = k0_off1 i 1 + 1 * 0; rw [k0_off1_eq]; rfl
      | ⟨2, _⟩ =>
        show col.val = k0_off1 i 2 + 1 * (col.val % 512)
        rw [k0_off1_eq]
        show col.val = 512 * (i 2).val + 1 * (col.val % 512)
        omega
    rw [e, Rect.overlay_emb, pay2_apply]
    rfl
  · rw [if_neg h]
    refine Rect.overlay_of_not_mem _ _ _ fun hm => h ?_
    have h2 := (Rect.mem_set_unit.mp hm) 2
    rw [k0_off1_eq] at h2
    have h3 : 512 * (i 2).val ≤ col.val ∧ col.val < 512 * (i 2).val + 512 := h2
    omega

variable (m : (ℓ : Loc nD τ sig) → Buf (Elt Ideal) ℓ)

/-- The innermost grid coordinate of point number `t` is `t % 8`. -/
theorem coord2 : ∀ t : Fin cfg0.N, ((grid0.coords t) 2).val = t.val % 8 :=
  (by decide +kernel : ∀ t : Fin grid0.N, ((grid0.coords t) 2).val = t.val % 8)

/-- The running column minima after the first point, read at a column. -/
theorem acc3_zero_apply (c : Dev nD) (h0 : 0 < cfg0.N) (col : Fin 4096) :
    (acc3 m c 0 h0 : S1x1x4096.Idx → EReal) (ix3 0 0 col)
      = if col.val / 512 = 0 then
          min ⊤ (Finset.univ.inf fun r : Fin 512 => k0_pay3 (F := Ideal) (xb0 m c ⟨0, h0⟩) (xb1 m c ⟨0, h0⟩) (ix2 r ⟨col.val % 512, Nat.mod_lt _ (by norm_num)⟩))
        else ⊤ := by
  rw [acc3, faced_apply _ (0 : Fin 8) (coord2 ⟨0, h0⟩)]
  simp only [pay1_apply]
  rfl

/-- The running column minima after a later point, read at a column: restarted from +∞ at the points ≡ 0 (mod 64), the
    slice facing the tile folded with the tile's column minima. -/
theorem acc3_succ_apply (c : Dev nD) (n : ℕ) (hn : n + 1 < cfg0.N) (col : Fin 4096) :
    (acc3 m c (n + 1) hn : S1x1x4096.Idx → EReal) (ix3 0 0 col)
      = if col.val / 512 = (n + 1) % 8 then
          min (if (n + 1) % 64 = 0 then ⊤ else (acc3 m c n (Nat.lt_of_succ_lt hn) : S1x1x4096.Idx → EReal) (ix3 0 0 col))
            (Finset.univ.inf fun r : Fin 512 => k0_pay3 (F := Ideal) (xb0 m c ⟨n + 1, hn⟩) (xb1 m c ⟨n + 1, hn⟩) (ix2 r ⟨col.val % 512, Nat.mod_lt _ (by norm_num)⟩))
        else (if (n + 1) % 64 = 0 then ⊤ else (acc3 m c n (Nat.lt_of_succ_lt hn) : S1x1x4096.Idx → EReal) (ix3 0 0 col)) := by
  rw [acc3, faced_apply _ (⟨(n + 1) % 8, Nat.mod_lt _ (by norm_num)⟩ : Fin 8) (coord2 ⟨n + 1, hn⟩)]
  by_cases h : (n + 1) % 64 = 0
  · simp only [if_pos h, pay1_apply]
  · simp only [if_neg h]

/-- The running column minima as a plain function of the point number and the column (+∞ outside the ranges). -/
def colRun (c : Dev nD) (t col : ℕ) : EReal :=
  if h : t < 512 ∧ col < 4096 then (acc3 m c t (lt_of_lt_of_eq h.1 N_0.symm) : S1x1x4096.Idx → EReal) (ix3 0 0 ⟨col, h.2⟩) else ⊤

/-- The column minima of the tile met at point number `t`, at the tile's column `j` (+∞ outside the ranges). -/
def colPart (c : Dev nD) (t j : ℕ) : EReal :=
  if h : t < 512 ∧ j < 512 then
    Finset.univ.inf fun r : Fin 512 => k0_pay3 (F := Ideal) (xb0 m c ⟨t, lt_of_lt_of_eq h.1 N_0.symm⟩) (xb1 m c ⟨t, lt_of_lt_of_eq h.1 N_0.symm⟩) (ix2 r ⟨j, h.2⟩)
  else ⊤

theorem colRun_zero (c : Dev nD) (col : ℕ) (hcol : col < 4096) :
    colRun m c 0 col = if col / 512 = 0 then min ⊤ (colPart m c 0 (col % 512)) else ⊤ := by
  unfold colRun colPart
  rw [dif_pos ⟨by norm_num, hcol⟩, dif_pos ⟨by norm_num, Nat.mod_lt _ (by norm_num)⟩, acc3_zero_apply]

theorem colRun_succ (c : Dev nD) (t col : ℕ) (ht : t + 1 < 512) (hcol : col < 4096) :
    colRun m c (t + 1) col
      = if col / 512 = (t + 1) % 8 then min (if (t + 1) % 64 = 0 then ⊤ else colRun m c t col) (colPart m c (t + 1) (col % 512))
        else (if (t + 1) % 64 = 0 then ⊤ else colRun m c t col) := by
  unfold colRun colPart
  rw [dif_pos ⟨ht, hcol⟩, dif_pos ⟨Nat.lt_of_succ_lt ht, hcol⟩, dif_pos ⟨ht, Nat.mod_lt _ (by norm_num)⟩, acc3_succ_apply]

/-- At the last point of batch `b` the running column minima hold, at column `k`, the minimum over all 4096 points of
    the first cloud: the eight tiles of a column strip, each the minimum over its 512 rows, regroup into the whole. -/
theorem colRun_last (c : Dev nD) (b : Fin 8) (k : Fin 4096) :
    colRun m c (b.val * 64 + 63) k.val = g2p (P m c) (G m c) b k := by
  have hb : b.val < 8 := b.isLt
  have hk : k.val < 4096 := k.isLt
  let f : ℕ → EReal := fun j => if h : j < 4096 then Cert.Chamfer.dist (P m c) (G m c) b ⟨j, h⟩ k else ⊤
  have hf : ∀ (j : ℕ) (h : j < 4096), f j = Cert.Chamfer.dist (P m c) (G m c) b ⟨j, h⟩ k := fun j h => dif_pos h
  have hg : g2p (P m c) (G m c) b k = (Finset.range 8).inf fun j => (Finset.range 512).inf fun cc => f (j * 512 + cc) := by
    rw [← inf_range_tiles f, ← inf_univ_fin_eq_range 4096 f]
    unfold g2p
    exact Finset.inf_congr rfl fun i _ => (hf i.val i.isLt).symm
  rw [hg, colAcc_closed (colRun m c) (colPart m c) 512 (colRun_zero m c) (colRun_succ m c) (b.val * 64 + 63) (by omega) (by omega) k.val hk]
  refine Finset.inf_congr rfl fun n' hn' => ?_
  have hn : n' < 8 := Finset.mem_range.mp hn'
  rw [← inf_univ_fin_eq_range 512 (fun cc => f (n' * 512 + cc))]
  have ht' : b.val * 64 + 63 - 63 + n' * 8 + k.val / 512 < 512 := by omega
  unfold colPart
  rw [dif_pos ⟨ht', Nat.mod_lt _ (by norm_num)⟩]
  refine Finset.inf_congr rfl fun r _ => ?_
  have hr : r.val < 512 := r.isLt
  refine (tile_dist m c ⟨_, lt_of_lt_of_eq ht' N_0.symm⟩ b ⟨n', hn⟩ ⟨k.val / 512, by omega⟩
    (by show b.val * 64 + 63 - 63 + n' * 8 + k.val / 512 = b.val * 64 + n' * 8 + k.val / 512; omega) r ⟨k.val % 512, Nat.mod_lt _ (by norm_num)⟩).trans ?_
  show _ = f (n' * 512 + r.val)
  rw [hf (n' * 512 + r.val) (by omega)]
  exact congrArg _ (Fin.ext (by show k.val / 512 * 512 + k.val % 512 = k.val; omega))

/-! ## From the blocks to the array -/

/-- The whole second output as the specification states it: at `(b, 0, k)` the nearest-neighbour distance of point `k`
    of the second cloud among the first, in batch `b`. -/
abbrev nearestP (c : Dev nD) : S8x1x4096.Idx → EReal :=
  fun i => g2p (P m c) (G m c) ⟨(i 0).val, (i 0).isLt⟩ ⟨(i 2).val, (i 2).isLt⟩

/-- The second output's block index, decided over the grid: the batch on the first axis, 0 on the others. -/
theorem colBlock_index : ∀ t : Fin cfg0.N, win0_3.index t (0 : Fin 3) = t.val / 64
    ∧ win0_3.index t (1 : Fin 3) = 0 ∧ win0_3.index t (2 : Fin 3) = 0 :=
  (by decide +kernel : ∀ t : Fin grid0.N, _)

/-- What a write-back point writes is its block of the specification's table. -/
theorem flushed_cols (c : Dev nD) (t : Fin cfg0.N) (ht : t.val % 64 = 63) :
    (dats m 0 c).flushed 3 t = ((cfg0.win 3).blk t).view.read (Elt Ideal) (nearestP m c) := by
  show (cfg0.win 3).cut (grid0.coords t) ((dats m 0 c).after 3 t) = _
  rw [after0_3]
  obtain ⟨e0, e1, e2⟩ := colBlock_index t
  have hN : t.val < 512 := lt_of_lt_of_eq t.isLt (show cfg0.N = 512 from N_0)
  funext j
  have hj0 : (j 0).val < 1 := (j 0).isLt
  have hj1 : (j 1).val < 1 := (j 1).isLt
  have hj2 : (j 2).val < 4096 := (j 2).isLt
  have hj : j = (ix3 0 0 (⟨(j 2).val, hj2⟩ : Fin 4096) : S1x1x4096.Idx) := by
    funext a; apply Fin.ext
    match a with
    | ⟨0, _⟩ => show (j 0).val = 0; omega
    | ⟨1, _⟩ => show (j 1).val = 0; omega
    | ⟨2, _⟩ => rfl
  have hb : t.val / 64 < 8 := by omega
  have hrun : (acc3 m c t.val t.isLt : S1x1x4096.Idx → EReal) (ix3 0 0 (⟨(j 2).val, hj2⟩ : Fin 4096))
      = g2p (P m c) (G m c) ⟨t.val / 64, hb⟩ ⟨(j 2).val, hj2⟩ := by
    have h := colRun_last m c ⟨t.val / 64, hb⟩ ⟨(j 2).val, hj2⟩
    have et : (⟨t.val / 64, hb⟩ : Fin 8).val * 64 + 63 = t.val := by show t.val / 64 * 64 + 63 = t.val; omega
    rw [et] at h
    unfold colRun at h
    rw [dif_pos ⟨hN, hj2⟩] at h
    exact h
  rw [View.read_apply]
  show (acc3 m c t.val t.isLt : S1x1x4096.Idx → EReal) j = nearestP m c (((cfg0.win 3).blk t).view.emb j)
  have a0 : ((((cfg0.win 3).blk t).view.emb j) 0).val = t.val / 64 := by
    show win0_3.index t (0 : Fin 3) * 1 + 1 * (j 0).val = _; omega
  have a2 : ((((cfg0.win 3).blk t).view.emb j) 2).val = (j 2).val := by
    show win0_3.index t (2 : Fin 3) * 4096 + 1 * (j 2).val = _; omega
  rw [hj] at a0 a2 ⊢
  rw [hrun]
  exact congrArg₂ (g2p (P m c) (G m c)) (Fin.ext a0.symm) (Fin.ext a2.symm)

/-- An index of the array is in point `t`'s block iff each coordinate is in the block's range on its axis. -/
theorem mem_colBlock (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Every index of the array is in the block of a point that writes back: batch `b` is covered by its last point. -/
theorem cols_cover (i : S8x1x4096.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 4096 := (i 2).isLt
  have htN : (i 0).val * 64 + 63 < cfg0.N := lt_of_lt_of_eq (show (i 0).val * 64 + 63 < 512 by omega) N_0.symm
  refine ⟨⟨(i 0).val * 64 + 63, htN⟩, (flush0_3 _).mpr (by show ((i 0).val * 64 + 63) % 64 = 63; omega), ?_⟩
  obtain ⟨e0, e1, e2⟩ := colBlock_index ⟨(i 0).val * 64 + 63, htN⟩
  have e0' : win0_3.index ⟨(i 0).val * 64 + 63, htN⟩ (0 : Fin 3) = (i 0).val := by
    rw [e0]; show ((i 0).val * 64 + 63) / 64 = (i 0).val; omega
  rw [mem_colBlock]
  intro a
  match a with
  | ⟨0, _⟩ => show win0_3.index ⟨(i 0).val * 64 + 63, htN⟩ (0 : Fin 3) * 1 ≤ (i 0).val ∧ (i 0).val < win0_3.index ⟨(i 0).val * 64 + 63, htN⟩ (0 : Fin 3) * 1 + 1; omega
  | ⟨1, _⟩ => show win0_3.index ⟨(i 0).val * 64 + 63, htN⟩ (1 : Fin 3) * 1 ≤ (i 1).val ∧ (i 1).val < win0_3.index ⟨(i 0).val * 64 + 63, htN⟩ (1 : Fin 3) * 1 + 1; omega
  | ⟨2, _⟩ => show win0_3.index ⟨(i 0).val * 64 + 63, htN⟩ (2 : Fin 3) * 4096 ≤ (i 2).val ∧ (i 2).val < win0_3.index ⟨(i 0).val * 64 + 63, htN⟩ (2 : Fin 3) * 4096 + 4096; omega

/-- The second output array after the run is the specification's table. -/
theorem final_cols (c : Dev nD) : (dats m 0 c).arrAt 3 cfg0.N = nearestP m c :=
  (dats m 0 c).arrAt_eq_of_cover 3 (nearestP m c) (fun t hf => flushed_cols m c t ((flush0_3 t).mp hf)) cols_cover

/-- The second output array ends holding, at `(b, 0, k)`, the minimum over all points of the first cloud of the clamped
    squared distance to point `k` of the second. -/
theorem final_g2p (c : Dev nD) (b : Fin 8) (k : Fin 4096) :
    ((dats m 0 c).arrAt 3 cfg0.N : S8x1x4096.Idx → EReal) (ix3 b 0 k) = g2p (P m c) (G m c) b k := by
  rw [final_cols]

end Cert.KernelIdeal.Cols

end
-- ==== Proof.TailBridge.lean ====
/-
  The kernel program's closing host lines are the reference's.

  After its grid computation the kernel program drops the unit axis of each of the two nearest-neighbour tables it produced and then
  applies, line for line, the closing arithmetic of the reference: the sum of each table along its point axis, the division by the
  number of points, the square root, the half-sum of the two, and the three means over the batch. Equal tables therefore give
  equal results: the closing lines are carried as they stand and never opened.
-/
import proofs.«174689_j45406394253980_1_alg».proof.Proof.Gen.KernelIdeal.Frame
import proofs.«174689_j45406394253980_1_alg».proof.Proof.RefValue
import Idealize.ShloMosaic.Lib.StableHlo.Run
import Idealize.ShloMosaic.Lib.Pipeline.FrameSuffix
import Idealize.ShloMosaic.Lib.Pipeline.Value
import Idealize.ShloMosaic.Lib.ValueIdx

noncomputable section

namespace Cert.KernelIdeal.TailBridge

open Cert.KernelIdeal Cert.KernelIdeal.Gen Idealize.ShloMosaic Idealize.ShloMosaic.ValueIdx

/-- Dropping the trailing unit axis of the first table: entry `(b, n)` of the result is entry `(b, n, 0)`. -/
theorem drop_last (A : (⟨S8x4096x1, .f32⟩ : BufTy).Contents (Elt Ideal)) (b : Fin 8) (n : Fin 4096) :
    shapeCast S8x4096 A shapeCasts_S8x4096x1_S8x4096 (ix2 b n) = A (ix3 b n 0) :=
  shapeCast_apply A _ (ix2 b n) (ix3 b n 0) (by
    rw [Shape.rowMajor_val_three, Shape.rowMajor_val_two]
    show (b.val * 4096 + n.val) * 1 + 0 = b.val * 4096 + n.val
    omega)

/-- Dropping the middle unit axis of the second table: entry `(b, k)` of the result is entry `(b, 0, k)`. -/
theorem drop_mid (A : (⟨S8x1x4096, .f32⟩ : BufTy).Contents (Elt Ideal)) (b : Fin 8) (k : Fin 4096) :
    shapeCast S8x4096 A shapeCasts_S8x1x4096_S8x4096 (ix2 b k) = A (ix3 b 0 k) :=
  shapeCast_apply A _ (ix2 b k) (ix3 b 0 k) (by
    rw [Shape.rowMajor_val_three, Shape.rowMajor_val_two]
    show (b.val * 1 + 0) * 4096 + k.val = b.val * 4096 + k.val
    omega)

/-- A `[8, 4096, 1]` table whose entries are the first nearest-neighbour table's, its unit axis dropped, is the reference's. -/
theorem tab_p2g (A : (⟨S8x4096x1, .f32⟩ : BufTy).Contents (Elt Ideal))
    (x0 x1 : (⟨Cert.ReferenceIdeal.S8x4096x3, .f32⟩ : BufTy).Contents (Elt Ideal))
    (h : ∀ (b : Fin 8) (n : Fin 4096), A (ix3 b n 0) = Cert.Chamfer.p2g (Cert.Chamfer.curry3 x0) (Cert.Chamfer.curry3 x1) b n) :
    shapeCast S8x4096 A shapeCasts_S8x4096x1_S8x4096 = Cert.ReferenceIdeal.Read.val_main_v15 (F := Ideal) x0 x1 := by
  funext i
  obtain ⟨b, n, rfl⟩ : ∃ (b : Fin 8) (n : Fin 4096), i = ix2 b n := ⟨i 0, i 1, eq_ix2 i⟩
  exact (drop_last A b n).trans ((h b n).trans (Cert.ReferenceIdeal.RefValue.ref_p2g x0 x1 b n).symm)

/-- A `[8, 1, 4096]` table whose entries are the second nearest-neighbour table's, its unit axis dropped, is the reference's. -/
theorem tab_g2p (A : (⟨S8x1x4096, .f32⟩ : BufTy).Contents (Elt Ideal))
    (x0 x1 : (⟨Cert.ReferenceIdeal.S8x4096x3, .f32⟩ : BufTy).Contents (Elt Ideal))
    (h : ∀ (b : Fin 8) (k : Fin 4096), A (ix3 b 0 k) = Cert.Chamfer.g2p (Cert.Chamfer.curry3 x0) (Cert.Chamfer.curry3 x1) b k) :
    shapeCast S8x4096 A shapeCasts_S8x1x4096_S8x4096 = Cert.ReferenceIdeal.Read.val_main_v16 (F := Ideal) x0 x1 := by
  funext i
  obtain ⟨b, k, rfl⟩ : ∃ (b : Fin 8) (k : Fin 4096), i = ix2 b k := ⟨i 0, i 1, eq_ix2 i⟩
  exact (drop_mid A b k).trans ((h b k).trans (Cert.ReferenceIdeal.RefValue.ref_g2p x0 x1 b k).symm)

/-- The three results after the closing lines, from tables equal to the reference's. -/
theorem results_eq (m : (ℓ : Loc nD τ sig) → Buf (Elt Ideal) ℓ)
    (dats : (p : Fin 1) → (c : Dev nD) → Pipeline.Dat τ (Elt Ideal) Unit ℕ (UR sig nD τ) ℕ (cfgs p) c) (c : Dev nD)
    (x0 x1 : (⟨Cert.ReferenceIdeal.S8x4096x3, .f32⟩ : BufTy).Contents (Elt Ideal))
    (h2 : ∀ (b : Fin 8) (n : Fin 4096), ((dats 0 c).arrAt 2 cfg0.N : S8x4096x1.Idx → EReal) (ix3 b n 0) = Cert.Chamfer.p2g (Cert.Chamfer.curry3 x0) (Cert.Chamfer.curry3 x1) b n)
    (h3 : ∀ (b : Fin 8) (k : Fin 4096), ((dats 0 c).arrAt 3 cfg0.N : S8x1x4096.Idx → EReal) (ix3 b 0 k) = Cert.Chamfer.g2p (Cert.Chamfer.curry3 x0) (Cert.Chamfer.curry3 x1) b k) :
    Pipeline.afterTail₀ cfgs dats 0 (V0 m) [hostOps1] c main_v16 = Cert.ReferenceIdeal.Read.val_main_v29 (F := Ideal) x0 x1
    ∧ Pipeline.afterTail₀ cfgs dats 0 (V0 m) [hostOps1] c main_v18 = Cert.ReferenceIdeal.Read.val_main_v31 (F := Ideal) x0 x1
    ∧ Pipeline.afterTail₀ cfgs dats 0 (V0 m) [hostOps1] c main_v20 = Cert.ReferenceIdeal.Read.val_main_v33 (F := Ideal) x0 x1 := by
  -- the two output arrays as the grid computation leaves them
  have e2 : Pipeline.withArrays (cfgs 0).spec c (V0 m c) (fun w => (dats 0 c).arrAt w (cfgs 0).N) (Proc.devRef .tc main_v1_0)
      = (dats 0 c).arrAt 2 cfg0.N := Pipeline.withArrays_arr spec0 launch0.win.arr_inj c _ _ 2
  have e3 : Pipeline.withArrays (cfgs 0).spec c (V0 m c) (fun w => (dats 0 c).arrAt w (cfgs 0).N) (Proc.devRef .tc main_v1_1)
      = (dats 0 c).arrAt 3 cfg0.N := Pipeline.withArrays_arr spec0 launch0.win.arr_inj c _ _ 3
  -- the two tables, their unit axes dropped, are the reference's
  have hp := tab_p2g ((dats 0 c).arrAt 2 cfg0.N) x0 x1 h2
  have hg := tab_g2p ((dats 0 c).arrAt 3 cfg0.N) x0 x1 h3
  refine ⟨?_, ?_, ?_⟩
  · unfold Pipeline.afterTail₀
    show StableHlo.after hostOps1 _ (Proc.devRef .tc main_v16) = _
    after_results
    rw [e2, e3]
    unfold Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_v17
    rw [← hp, ← hg]
    rfl
  · unfold Pipeline.afterTail₀
    show StableHlo.after hostOps1 _ (Proc.devRef .tc main_v18) = _
    after_results
    rw [e2]
    unfold Cert.ReferenceIdeal.Read.val_main_v31 Cert.ReferenceIdeal.Read.val_main_v30 Cert.ReferenceIdeal.Read.val_main_v20 Cert.ReferenceIdeal.Read.val_main_v19 Cert.ReferenceIdeal.Read.val_main_v18 Cert.ReferenceIdeal.Read.val_main_v17
    rw [← hp]
    rfl
  · unfold Pipeline.afterTail₀
    show StableHlo.after hostOps1 _ (Proc.devRef .tc main_v20) = _
    after_results
    rw [e3]
    unfold Cert.ReferenceIdeal.Read.val_main_v33 Cert.ReferenceIdeal.Read.val_main_v32 Cert.ReferenceIdeal.Read.val_main_v24 Cert.ReferenceIdeal.Read.val_main_v23 Cert.ReferenceIdeal.Read.val_main_v22 Cert.ReferenceIdeal.Read.val_main_v21
    rw [← hg]
    rfl

end Cert.KernelIdeal.TailBridge

end
-- ==== Proof.lean ====
/-
  The kernel computes the symmetric nearest-neighbour ("Chamfer") loss of two point clouds `P, G : [8, 4096, 3]`:
  with the clamped, expanded squared distance  d b n m = max ((|P b n|² + |G b m|²) − 2·⟨P b n, G b m⟩) 0,
  the tables  p2g b n = min over m of d b n m  and  g2p b m = min over n of d b n m,  then per batch the square roots of
  their means, and three averages of those over the batch.

  The reference forms the whole [8, 4096, 4096] distance array and reduces it along either axis. The kernel never forms it:
  it sweeps 512 × 512 tiles over a grid (batch, tile row, tile column) and keeps two running minima in its output blocks —
  the row minima of the current tile row (restarted at tile column 0, written back at tile column 7) and the column minima
  of the whole batch (restarted at the batch's first tile, each tile folding the 512 columns it faces, written back at
  the batch's last tile). Over the extended reals a minimum may be regrouped and reordered freely (min is commutative,
  associative, idempotent, +∞ neutral), so the tiled folds are the reference's reductions, index by index; no
  finiteness of the inputs is used. The closing arithmetic (means, square roots, averages) is the same host text in
  both programs and is carried as one unopened function of the two tables.

  The modules: the specification (Spec), the pure regrouping of minima (MinFold), the reference's two tables (RefValue),
  the kernel body's payloads read at an index (PayValue), the body run per control case and the pipeline's proof data
  and frame at either instance (KIRuns / KIData for the idealized kernel, KBRuns / KBData for the word-level one), the
  input blocks and the tile in global coordinates (KIBlocks), the two output arrays after the run (KIRows, KICols), and
  the shared closing lines (TailBridge).
-/
import proofs.«174689_j45406394253980_1_alg».proof.Defs
import proofs.«174689_j45406394253980_1_alg».proof.Proof.Gen.Kernel
import proofs.«174689_j45406394253980_1_alg».proof.Proof.Gen.KernelIdeal
import proofs.«174689_j45406394253980_1_alg».proof.Proof.Gen.ReferenceIdeal
import proofs.«174689_j45406394253980_1_alg».proof.Proof.Gen.Pre_finite_inputs
import proofs.«174689_j45406394253980_1_alg».proof.Proof.RefImports
import proofs.«174689_j45406394253980_1_alg».proof.Proof.KIData
import proofs.«174689_j45406394253980_1_alg».proof.Proof.KBData
import proofs.«174689_j45406394253980_1_alg».proof.Proof.RefValue
import proofs.«174689_j45406394253980_1_alg».proof.Proof.KIRows
import proofs.«174689_j45406394253980_1_alg».proof.Proof.KICols
import proofs.«174689_j45406394253980_1_alg».proof.Proof.TailBridge
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : @Cert.frame_Kernel Cert.Kernel.Gen.facts Cert.Pre_finite_inputs.Gen.facts :=
  fun m ρ _ => Cert.Kernel.Body.frame m ρ

/-- So does the idealized kernel program. -/
theorem frame_ki : @Cert.frame_KernelIdeal Cert.KernelIdeal.Gen.facts Cert.Pre_finite_inputs.Gen.facts :=
  fun m ρ _ => Cert.KernelIdeal.Body.frame m ρ

/-- The reference is host operations only: its run, with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => ⟨(h c).2.2.2.1, (h c).2.2.2.2⟩)
    (Cert.ReferenceIdeal.Value.run (F := Ideal) m ρ)

/-- Both programs end with the reference's three results: the kernel's two output arrays are the two nearest-neighbour
    tables (the tiled folds regrouped), the reference's two reductions are the same tables, and the closing lines agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Body.run_main (F := Ideal) m ρ)
    obtain ⟨e16, e18, e20⟩ := Cert.KernelIdeal.TailBridge.results_eq m (Cert.KernelIdeal.Body.dats m) c _ _
      (fun b n => Cert.KernelIdeal.Rows.final_p2g m c b n) (fun b k => Cert.KernelIdeal.Cols.final_g2p m c b k)
    exact ⟨((h c).2 Cert.KernelIdeal.main_v16 (Pipeline.mem_restRefs_of Cert.KernelIdeal.main_v16 (by decide) (by decide))).trans e16,
      ((h c).2 Cert.KernelIdeal.main_v18 (Pipeline.mem_restRefs_of Cert.KernelIdeal.main_v18 (by decide) (by decide))).trans e18,
      ((h c).2 Cert.KernelIdeal.main_v20 (Pipeline.mem_restRefs_of Cert.KernelIdeal.main_v20 (by decide) (by decide))).trans e20,
      ((h c).1 0).trans (((Cert.KernelIdeal.Body.dats m 0 c).arrAt_in 0 rfl _).trans ((Cert.KernelIdeal.Body.A_eq m c 0).trans (Cert.KernelIdeal.Gen.V_main_arg0 m c))),
      ((h c).2 Cert.KernelIdeal.main_arg1 (Pipeline.mem_restRefs_of Cert.KernelIdeal.main_arg1 (by decide) (by decide))).trans (Cert.KernelIdeal.Gen.W_main_arg1 m (Cert.KernelIdeal.Body.dats m) c)⟩
  · refine (θ_run Cert.ReferenceIdeal.defs _ _).mono (fun r h c => ?_) (Cert.ReferenceIdeal.Value.run (F := Ideal) m' ρ')
    refine ⟨(h c).1.trans ?_, (h c).2.1.trans ?_, (h c).2.2.1.trans ?_, (h c).2.2.2.1, (h c).2.2.2.2⟩
    · rw [Cert.ReferenceIdeal.Read.val_main_v29_eq, (hagree c).1, (hagree c).2]
    · rw [Cert.ReferenceIdeal.Read.val_main_v31_eq, (hagree c).1, (hagree c).2]
    · rw [Cert.ReferenceIdeal.Read.val_main_v33_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
